-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S800000x8 : Shape := ⟨2, ![800000, 8]⟩
abbrev S64x512 : Shape := ⟨2, ![64, 512]⟩
abbrev S800000 : Shape := ⟨1, ![800000]⟩
abbrev S64x64 : Shape := ⟨2, ![64, 64]⟩
abbrev S64 : Shape := ⟨1, ![64]⟩
abbrev S8x32 : Shape := ⟨2, ![8, 32]⟩
abbrev S32 : Shape := ⟨1, ![32]⟩
abbrev S512x128 : Shape := ⟨2, ![512, 128]⟩
abbrev S128 : Shape := ⟨1, ![128]⟩
abbrev S96x64 : Shape := ⟨2, ![96, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S64x512 : S_.BroadcastsInDim S64x512 (![] : Fin 0 → Fin S64x512.rank)
  reducesTo_S64x512_S_d0_1 : S64x512.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S96x64 : S_.BroadcastsInDim S96x64 (![] : Fin 0 → Fin S96x64.rank)
  reducesTo_S96x64_S_d0_1 : S96x64.ReducesTo [0, 1] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_arg4 : IVec S800000 32) (main_v48 : IVec S_ 1) (main_v50 : IVec S2x800000 1) : IVec S_ 1 :=
  let main_c_19 : IVec S_ 32 := constantI S_ 32 100000#32
  let main_v51 : IVec S2x800000 32 := broadcastInDim S2x800000 ![] bcast_S_S2x800000 main_c_19
  let main_v52 : IVec S2x800000 1 := cmpi .slt main_arg1 main_v51
  let main_v53 : IVec S2x800000 1 := andi main_v50 main_v52
  let main_c_20 : IVec S_ 1 := constantI S_ 1 1#1
  let main_v54 : IVec S_ 1 := (fun x v => Host.reduce IntOp.andi x v reducesTo_S2x800000_S_d0_1 h_S_) main_v53 main_c_20
  let main_v55 : IVec S_ 1 := andi main_v48 main_v54
  let main_c_21 : IVec S_ 32 := constantI S_ 32 4294967232#32
  let main_v56 : IVec S800000 32 := broadcastInDim S800000 ![] bcast_S_S800000 main_c_21
  let main_v57 : IVec S800000 1 := cmpi .sge main_arg4 main_v56
  let main_c_22 : IVec S_ 32 := constantI S_ 32 64#32
  let main_v58 : IVec S800000 32 := broadcastInDim S800000 ![] bcast_S_S800000 main_c_22
  let main_v59 : IVec S800000 1 := cmpi .slt main_arg4 main_v58
  let main_v60 : IVec S800000 1 := andi main_v57 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v55 main_v61
  main_v62

def fn_part2 {F : FTy → Type} [FloatOps F] (main_arg1 : IVec S2x800000 32) (main_arg4 : IVec S800000 32) (main_arg9 : FVec F S512x128 .f32) (main_arg10 : FVec F S128 .f32) (main_arg11 : FVec F S96x64 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S96x64 .f32 := Host.absf main_arg11
  let main_cst_16 : FVec F S_ .f32 := constant S_ .f32 0x7F800000#32
  let main_v45 : FVec F S96x64 .f32 := broadcastInDim S96x64 ![] bcast_S_S96x64 main_cst_16
  let main_v46 : IVec S96x64 1 := cmpf .olt main_v44 main_v45
  let main_c_17 : IVec S_ 1 := constantI S_ 1 1#1
  let main_v47 : IVec S_ 1 := (fun x v => Host.reduce IntOp.andi x v reducesTo_S96x64_S_d0_1 h_S_) main_v46 main_c_17
  let main_v48 : IVec S_ 1 := andi main_v43 main_v47
  let main_c_18 : IVec S_ 32 := constantI S_ 32 4294867296#32
  let main_v49 : IVec S2x800000 32 := broadcastInDim S2x800000 ![] bcast_S_S2x800000 main_c_18
  let main_v50 : IVec S2x800000 1 := cmpi .sge main_arg1 main_v49
  fn_part3 (F := F) main_arg1 main_arg4 main_v48 main_v50

def fn_part1 {F : FTy → Type} [FloatOps F] (main_arg1 : IVec S2x800000 32) (main_arg4 : IVec S800000 32) (main_arg6 : FVec F S64 .f32) (main_arg7 : FVec F S8x32 .f32) (main_arg8 : FVec F S32 .f32) (main_arg9 : FVec F S512x128 .f32) (main_arg10 : FVec F S128 .f32) (main_arg11 : FVec F S96x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S8x32 .f32 := Host.absf main_arg7
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg4 main_arg9 main_arg10 main_arg11 main_v33

def fn {F : FTy → Type} [FloatOps F] (main_arg0 : FVec F S100000x64 .f32) (main_arg1 : IVec S2x800000 32) (main_arg2 : FVec F S800000x8 .f32) (main_arg3 : FVec F S64x512 .f32) (main_arg4 : IVec S800000 32) (main_arg5 : FVec F S64x64 .f32) (main_arg6 : FVec F S64 .f32) (main_arg7 : FVec F S8x32 .f32) (main_arg8 : FVec F S32 .f32) (main_arg9 : FVec F S512x128 .f32) (main_arg10 : FVec F S128 .f32) (main_arg11 : FVec F S96x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg4 main_arg6 main_arg7 main_arg8 main_arg9 main_arg10 main_arg11 main_v13 main_v16
-- ==== Kernel.lean ====
abbrev S100000x64 : Shape := ⟨2, ![100000, 64]⟩
abbrev S2x800000 : Shape := ⟨2, ![2, 800000]⟩
abbrev S800000x8 : Shape := ⟨2, ![800000, 8]⟩
abbrev S64x512 : Shape := ⟨2, ![64, 512]⟩
abbrev S800000 : Shape := ⟨1, ![800000]⟩
abbrev S64x64 : Shape := ⟨2, ![64, 64]⟩
abbrev S64 : Shape := ⟨1, ![64]⟩
abbrev S8x32 : Shape := ⟨2, ![8, 32]⟩
abbrev S32 : Shape := ⟨1, ![32]⟩
abbrev S512x128 : Shape := ⟨2, ![512, 128]⟩
abbrev S128 : Shape := ⟨1, ![128]⟩
abbrev S96x64 : Shape := ⟨2, ![96, 64]⟩
abbrev S1x64 : Shape := ⟨2, ![1, 64]⟩
abbrev S5000x64 : Shape := ⟨2, ![5000, 64]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x128 : Shape := ⟨2, ![1, 128]⟩
abbrev S64x128 : Shape := ⟨2, ![64, 128]⟩
abbrev S1x32 : Shape := ⟨2, ![1, 32]⟩
abbrev S2000x64 : Shape := ⟨2, ![2000, 64]⟩
abbrev S2000x8 : Shape := ⟨2, ![2000, 8]⟩
abbrev S2000x32 : Shape := ⟨2, ![2000, 32]⟩
abbrev S2000x96 : Shape := ⟨2, ![2000, 96]⟩

abbrev nBuf : Space → Nat
  | .hbm => 119
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000x8, .f32⟩
  | .hbm, ⟨3, _⟩ => ⟨S64x512, .f32⟩
  | .hbm, ⟨4, _⟩ => ⟨S800000, .i32⟩
  | .hbm, ⟨5, _⟩ => ⟨S64x64, .f32⟩
  | .hbm, ⟨6, _⟩ => ⟨S64, .f32⟩
  | .hbm, ⟨7, _⟩ => ⟨S8x32, .f32⟩
  | .hbm, ⟨8, _⟩ => ⟨S32, .f32⟩
  | .hbm, ⟨9, _⟩ => ⟨S512x128, .f32⟩
  | .hbm, ⟨10, _⟩ => ⟨S128, .f32⟩
  | .hbm, ⟨11, _⟩ => ⟨S96x64, .f32⟩
  | .hbm, ⟨12, _⟩ => ⟨S1x64, .f32⟩
  | .hbm, ⟨13, _⟩ => ⟨S100000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x64, .f32⟩
  | .hbm, ⟨37, _⟩ => ⟨S800000x64, .i1⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x64, .f32⟩
  | .hbm, ⟨60, _⟩ => ⟨S800000x64, .i1⟩
  | .hbm, ⟨61, _⟩ => ⟨S_, .f32⟩
  | .hbm, ⟨62, _⟩ => ⟨S800000x64, .f32⟩
  | .hbm, ⟨63, _⟩ => ⟨S800000x64, .f32⟩
  | .hbm, ⟨64, _⟩ => ⟨S1x128, .f32⟩
  | .hbm, ⟨65, _⟩ => ⟨S64x128, .f32⟩
  | .hbm, ⟨66, _⟩ => ⟨S64x64, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S1, .i32⟩
  | .hbm, ⟨80, _⟩ => ⟨S_, .i32⟩
  | .hbm, ⟨81, _⟩ => ⟨S800000x1, .i32⟩
  | .hbm, ⟨82, _⟩ => ⟨S800000x1, .i1⟩
  | .hbm, ⟨83, _⟩ => ⟨S1x1, .i32⟩
  | .hbm, ⟨84, _⟩ => ⟨S800000x1, .i32⟩
  | .hbm, ⟨85, _⟩ => ⟨S800000x1, .i1⟩
  | .hbm, ⟨86, _⟩ => ⟨S800000x1, .i1⟩
  | .hbm, ⟨87, _⟩ => ⟨S_, .i1⟩
  | .hbm, ⟨88, _⟩ => ⟨S800000, .i1⟩
  | .hbm, ⟨89, _⟩ => ⟨S800000x64, .f32⟩
  | .hbm, ⟨90, _⟩ => ⟨S800000x64, .i1⟩
  | .hbm, ⟨91, _⟩ => ⟨S_, .f32⟩
  | .hbm, ⟨92, _⟩ => ⟨S800000x64, .f32⟩
  | .hbm, ⟨93, _⟩ => ⟨S800000x64, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S1, .i32⟩
  | .hbm, ⟨103, _⟩ => ⟨S_, .i32⟩
  | .hbm, ⟨104, _⟩ => ⟨S800000x1, .i32⟩
  | .hbm, ⟨105, _⟩ => ⟨S800000x1, .i1⟩
  | .hbm, ⟨106, _⟩ => ⟨S1x1, .i32⟩
  | .hbm, ⟨107, _⟩ => ⟨S800000x1, .i32⟩
  | .hbm, ⟨108, _⟩ => ⟨S800000x1, .i1⟩
  | .hbm, ⟨109, _⟩ => ⟨S800000x1, .i1⟩
  | .hbm, ⟨110, _⟩ => ⟨S_, .i1⟩
  | .hbm, ⟨111, _⟩ => ⟨S800000, .i1⟩
  | .hbm, ⟨112, _⟩ => ⟨S800000x64, .f32⟩
  | .hbm, ⟨113, _⟩ => ⟨S800000x64, .i1⟩
  | .hbm, ⟨114, _⟩ => ⟨S_, .f32⟩
  | .hbm, ⟨115, _⟩ => ⟨S800000x64, .f32⟩
  | .hbm, ⟨116, _⟩ => ⟨S800000x64, .f32⟩
  | .hbm, ⟨117, _⟩ => ⟨S1x32, .f32⟩
  | .hbm, ⟨118, _⟩ => ⟨S800000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S64x512, .f32⟩
  | .local _ .vmem, ⟨7, _⟩ => ⟨S512x128, .f32⟩
  | .local _ .vmem, ⟨8, _⟩ => ⟨S1x128, .f32⟩
  | .local _ .vmem, ⟨9, _⟩ => ⟨S64x128, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x8, .f32⟩
  | .local _ .vmem, ⟨15, _⟩ => ⟨S2000x8, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S8x32, .f32⟩
  | .local _ .vmem, ⟨21, _⟩ => ⟨S1x32, .f32⟩
  | .local _ .vmem, ⟨22, _⟩ => ⟨S96x64, .f32⟩
  | .local _ .vmem, ⟨23, _⟩ => ⟨S2000x64, .f32⟩
  | .local _ .vmem, ⟨24, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v14 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v15 : Ref sig .tc := ⟨.hbm, 116, rfl⟩
abbrev main_v16 : Ref sig .tc := ⟨.hbm, 117, rfl⟩
abbrev main_v17 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S96x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S128_S1x128 : S128.ShapeCasts S1x128
  inb_S64x512_S64x512_0_0 : ∀ a, (![0, 0] : Fin 2 → Nat) a + S64x512.size a ≤ S64x512.size a
  h_S64x512 : 0 < S64x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x8_S2000x8_0_0 : ∀ a, (![0, 0] : Fin 2 → Nat) a + S2000x8.size a ≤ S2000x8.size a
  h_S2000x8 : 0 < S2000x8.numel
  inb_S8x32_S8x32_0_0 : ∀ a, (![0, 0] : Fin 2 → Nat) a + S8x32.size a ≤ S8x32.size a
  h_S8x32 : 0 < S8x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  concatenates_S2000x64_S2000x32_S2000x96_d1 : Shape.Concatenates [S2000x64, S2000x32] S2000x96 1
  inb_S96x64_S96x64_0_0 : ∀ a, (![0, 0] : Fin 2 → Nat) a + S96x64.size a ≤ S96x64.size a
  h_S96x64 : 0 < S96x64.numel
  dot_S5000x64_S64x64_S5000x64_1_0_0_1_n_n_wf : DotDims.WF S5000x64 S64x64 S5000x64 [1] [0] [0] [1] [] []
  gather_S100000x64_S800000x1_S800000x64_1_0_n_n_0_1_164_wf : GatherDims.WF S100000x64 S800000x1 S800000x64 [1] [0] [] [0] [] 1 ![1, 64]
  dot_S64x512_S512x128_S64x128_1_0_0_1_n_n_wf : DotDims.WF S64x512 S512x128 S64x128 [1] [0] [0] [1] [] []
  gather_S64x64_S800000x1_S800000x64_1_0_n_n_0_1_164_wf : GatherDims.WF S64x64 S800000x1 S800000x64 [1] [0] [] [0] [] 1 ![1, 64]
  dot_S2000x8_S8x32_S2000x32_1_0_0_1_n_n_wf : DotDims.WF S2000x8 S8x32 S2000x32 [1] [0] [0] [1] [] []
  dot_S2000x96_S96x64_S2000x64_1_0_0_1_n_n_wf : DotDims.WF S2000x96 S96x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x512.size a
  hwx1_0 : ∀ i : grid1.Coords, EltTy.bits .f32 = 32 ∨ (Rect.block (s := S64x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S800000x64.size a
  hwx2_0 : ∀ i : grid2.Coords, EltTy.bits .f32 = 32 ∨ (Rect.block (s := S800000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S800000x64.size a
  hwx2_1 : ∀ i : grid2.Coords, EltTy.bits .f32 = 32 ∨ (Rect.block (s := S800000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S800000x8.size a
  hwx2_2 : ∀ i : grid2.Coords, EltTy.bits .f32 = 32 ∨ (Rect.block (s := S800000x8) S2000x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S800000x64.size a
  hwx2_3 : ∀ i : grid2.Coords, EltTy.bits .f32 = 32 ∨ (Rect.block (s := S800000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S800000x64.size a
  hwx2_4 : ∀ i : grid2.Coords, EltTy.bits .f32 = 32 ∨ (Rect.block (s := S800000x64) S2000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x32.size a ≤ S8x32.size a
  hwx2_5 : ∀ i : grid2.Coords, EltTy.bits .f32 = 32 ∨ (Rect.block (s := S8x32) S8x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S96x64.size a ≤ S96x64.size a
  hwx2_7 : ∀ i : grid2.Coords, EltTy.bits .f32 = 32 ∨ (Rect.block (s := S96x64) S96x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S800000x64.size a
  hwx2_8 : ∀ i : grid2.Coords, EltTy.bits .f32 = 32 ∨ (Rect.block (s := S800000x64) S2000x64.size (cc2_transform_8 i) (hinb2_8 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def gather_S64x64_S800000x1_S800000x64_1_0_n_n_0_1_164 : GatherDims S64x64 S800000x1 S800000x64 where
  offsetDims := [1]
  collapsedSliceDims := [0]
  operandBatchingDims := []
  startIndicesBatchingDims := []
  startIndexMap := [0]
  indexVectorDim := 1
  sliceSizes := ![1, 64]
  wf := gather_S64x64_S800000x1_S800000x64_1_0_n_n_0_1_164_wf
def dot_S2000x8_S8x32_S2000x32_1_0_0_1_n_n : DotDims S2000x8 S8x32 S2000x32 where
  lhsContracting := [1]
  rhsContracting := [0]
  lhsNonContracting := [0]
  rhsNonContracting := [1]
  lhsBatch := []
  rhsBatch := []
  wf := dot_S2000x8_S8x32_S2000x32_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S64x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S8x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S96x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S2000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S800000x8 : Shape := ⟨2, ![800000, 8]⟩
abbrev S64x512 : Shape := ⟨2, ![64, 512]⟩
abbrev S800000 : Shape := ⟨1, ![800000]⟩
abbrev S64x64 : Shape := ⟨2, ![64, 64]⟩
abbrev S64 : Shape := ⟨1, ![64]⟩
abbrev S8x32 : Shape := ⟨2, ![8, 32]⟩
abbrev S32 : Shape := ⟨1, ![32]⟩
abbrev S512x128 : Shape := ⟨2, ![512, 128]⟩
abbrev S128 : Shape := ⟨1, ![128]⟩
abbrev S96x64 : Shape := ⟨2, ![96, 64]⟩
abbrev S1x64 : Shape := ⟨2, ![1, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x32 : Shape := ⟨2, ![800000, 32]⟩
abbrev S1x32 : Shape := ⟨2, ![1, 32]⟩
abbrev S800000x96 : Shape := ⟨2, ![800000, 96]⟩
abbrev S64x128 : Shape := ⟨2, ![64, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000x8, .f32⟩
  | .hbm, ⟨3, _⟩ => ⟨S64x512, .f32⟩
  | .hbm, ⟨4, _⟩ => ⟨S800000, .i32⟩
  | .hbm, ⟨5, _⟩ => ⟨S64x64, .f32⟩
  | .hbm, ⟨6, _⟩ => ⟨S64, .f32⟩
  | .hbm, ⟨7, _⟩ => ⟨S8x32, .f32⟩
  | .hbm, ⟨8, _⟩ => ⟨S32, .f32⟩
  | .hbm, ⟨9, _⟩ => ⟨S512x128, .f32⟩
  | .hbm, ⟨10, _⟩ => ⟨S128, .f32⟩
  | .hbm, ⟨11, _⟩ => ⟨S96x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x64, .f32⟩
  | .hbm, ⟨39, _⟩ => ⟨S800000x32, .f32⟩
  | .hbm, ⟨40, _⟩ => ⟨S1x32, .f32⟩
  | .hbm, ⟨41, _⟩ => ⟨S800000x32, .f32⟩
  | .hbm, ⟨42, _⟩ => ⟨S800000x32, .f32⟩
  | .hbm, ⟨43, _⟩ => ⟨S800000x96, .f32⟩
  | .hbm, ⟨44, _⟩ => ⟨S64x128, .f32⟩
  | .hbm, ⟨45, _⟩ => ⟨S1x128, .f32⟩
  | .hbm, ⟨46, _⟩ => ⟨S64x128, .f32⟩
  | .hbm, ⟨47, _⟩ => ⟨S64x128, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S800000x64, .f32⟩
  | .hbm, ⟨76, _⟩ => ⟨S800000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  concatenates_S800000x64_S800000x32_S800000x96_d1 : Shape.Concatenates [S800000x64, S800000x32] S800000x96 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  slices_S64x128_S64x64_0_0 : S64x128.Slices ![0, 0] S64x64
  slices_S64x128_S64x64_0_64 : S64x128.Slices ![0, 64] S64x64
  bcast_S_S64x64 : S_.BroadcastsInDim S64x64 (![] : Fin 0 → Fin S64x64.rank)
  bcast_S_S800000x64 : S_.BroadcastsInDim S800000x64 (![] : Fin 0 → Fin S800000x64.rank)
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  dot_S800000x8_S8x32_S800000x32_1_0_0_1_n_n_wf : DotDims.WF S800000x8 S8x32 S800000x32 [1] [0] [0] [1] [] []
  dot_S64x512_S512x128_S64x128_1_0_0_1_n_n_wf : DotDims.WF S64x512 S512x128 S64x128 [1] [0] [0] [1] [] []
  gather_S64x64_S800000x1_S800000x64_1_0_n_n_0_1_164_wf : GatherDims.WF S64x64 S800000x1 S800000x64 [1] [0] [] [0] [] 1 ![1, 64]
  dot_S800000x96_S96x64_S800000x64_1_0_0_1_n_n_wf : DotDims.WF S800000x96 S96x64 S800000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x8_S8x32_S800000x32_1_0_0_1_n_n : DotDims S800000x8 S8x32 S800000x32 where
  lhsContracting := [1]
  rhsContracting := [0]
  lhsNonContracting := [0]
  rhsNonContracting := [1]
  lhsBatch := []
  rhsBatch := []
  wf := dot_S800000x8_S8x32_S800000x32_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def gather_S64x64_S800000x1_S800000x64_1_0_n_n_0_1_164 : GatherDims S64x64 S800000x1 S800000x64 where
  offsetDims := [1]
  collapsedSliceDims := [0]
  operandBatchingDims := []
  startIndicesBatchingDims := []
  startIndexMap := [0]
  indexVectorDim := 1
  sliceSizes := ![1, 64]
  wf := gather_S64x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf

class Facts : Prop extends Facts₀ where

variable [Facts]
-- ==== Proof.Spec.lean ====
/-
  The two row-wise functions this kernel is made of, over the extended reals.

  An edge's output row depends on one row of each per-edge array and on the small weight matrices only, and a
  projected node row on one node row only. So both functions are stated for ANY number of rows `n`: at the
  full extent they are the result arrays, and at a block's extent what one grid point computes from its blocks.

  * `affine x w b`: row `r` of `x` against the columns of `w`, plus the bias row: `(Σ_k x[r,k]·w[k,j]) + b[0,j]`.
  * `joined src dst geo wg bg`: the 96 joined features of an edge: columns 0–63 the product of the two endpoint
    rows, columns 64–95 the projected geometry `affine geo wg bg`.
  * `fuse …`: the joined features against `wx`, scaled by `gam`, shifted by `bet`, clipped below at the zero word.
-/
import Idealize.ShloMosaic.PureOps.Ideal
import Idealize.ShloMosaic.Lib.ValueIdx

noncomputable section

namespace Cert.FilmEdge

open Idealize.ShloMosaic Idealize.ShloMosaic.ValueIdx

/-- An array of extended reals over a literal two-axis shape. -/
abbrev Arr (n0 n1 : Nat) : Type := (⟨2, ![n0, n1]⟩ : Shape).Idx → EReal

/-- The row coordinate of a two-axis index. -/
abbrev row {n0 n1 : Nat} (i : (⟨2, ![n0, n1]⟩ : Shape).Idx) : Fin n0 := i 0
/-- The column coordinate of a two-axis index. -/
abbrev col {n0 n1 : Nat} (i : (⟨2, ![n0, n1]⟩ : Shape).Idx) : Fin n1 := i 1

/-- A vector of length `m` laid out as the one row of a `[1, m]` array. -/
def asRow {m : Nat} (b : (⟨1, ![m]⟩ : Shape).Idx → EReal) : Arr 1 m := fun i => b (ix1 (col i))

/-- `(x · w)[r, j] + b[0, j]`. -/
def affine {n k m : Nat} (x : Arr n k) (w : Arr k m) (b : Arr 1 m) : Arr n m :=
  fun i => (∑ q : Fin k, x (ix2 (row i) q) * w (ix2 q (col i))) + b (ix2 0 (col i))

/-- The joined features of each edge: the endpoint rows' product, then the projected geometry. -/
def joined {n : Nat} (src dst : Arr n 64) (geo : Arr n 8) (wg : Arr 8 32) (bg : Arr 1 32) : Arr n 96 :=
  fun i => if h : (col i).val < 64 then src (ix2 (row i) ⟨(col i).val, h⟩) * dst (ix2 (row i) ⟨(col i).val, h⟩)
    else affine geo wg bg (ix2 (row i) ⟨(col i).val - 64, by have := (col i).isLt; omega⟩)

/-- The fused edge path: `max ((joined · wx) * gam + bet) 0`, the zero kept as the f32 zero word. -/
def fuse {n : Nat} (src dst : Arr n 64) (geo : Arr n 8) (gam bet : Arr n 64) (wg : Arr 8 32) (bg : Arr 1 32)
    (wx : Arr 96 64) : Arr n 64 :=
  fun i => max ((∑ q : Fin 96, joined src dst geo wg bg (ix2 (row i) q) * wx (ix2 q (col i))) * gam i + bet i)
    (Ideal.ofBits .f32 0x00000000#32)

/-- `affine` reads one row of `x`: rows of the result are rows of `x` carried through. -/
theorem affine_rows {n n' k m : Nat} (x : Arr n k) (x' : Arr n' k) (w : Arr k m) (b : Arr 1 m)
    (i : (⟨2, ![n, m]⟩ : Shape).Idx) (i' : (⟨2, ![n', m]⟩ : Shape).Idx) (hc : (col i).val = (col i').val)
    (hx : ∀ q : Fin k, x (ix2 (row i) q) = x' (ix2 (row i') q)) : affine x w b i = affine x' w b i' := by
  have hcol : col i = col i' := Fin.ext hc
  unfold affine
  rw [hcol]
  congr 1
  exact Finset.sum_congr rfl fun q _ => by rw [hx q]

end Cert.FilmEdge

end
-- ==== Proof.Payload.lean ====
/-
  What one grid point computes from its blocks, for each of the three kernels, as the row-wise functions of
  `Spec.lean` at the block's extent: the two projection kernels are `affine` (the bf16 casts are the identity on
  the extended reals, and a matrix product into a zero accumulator is the plain sum over the contracted axis),
  the edge kernel is `fuse`.
-/
import proofs.«410433_j62027917688906_1_alg».proof.Proof.Gen.KernelIdeal.Skeleton
import proofs.«410433_j62027917688906_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.FilmEdge

open Idealize.ShloMosaic Idealize.ShloMosaic.ValueIdx
open Cert.KernelIdeal Cert.KernelIdeal.Gen

/-! ## The four matrix products, read at a row and a column

Each product contracts the left operand's axis 1 with the right operand's axis 0 and has no batch axis, so at row `p`
and column `q` the left operand is read at `(p, k)` and the right one at `(k, q)`. -/

/-! ### The node projection's product, `[5000, 64] × [64, 64]` -/

theorem pay_lhs_nodeDot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem pay_lhs_nodeDot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem pay_rhs_nodeDot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem pay_rhs_nodeDot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- The product into the zero accumulator at row `p`, column `q`: the sum over the contracted axis. -/
theorem pay_nodeDot_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun c => Fin.ext (by
    match c with
    | ⟨0, _⟩ => exact pay_lhs_nodeDot_0 _ _
    | ⟨1, _⟩ => exact (pay_lhs_nodeDot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun c => Fin.ext (by
    match c with
    | ⟨0, _⟩ => exact (pay_rhs_nodeDot_0 _ _).trans hk
    | ⟨1, _⟩ => exact pay_rhs_nodeDot_1 _ _)
  rw [el, er]

/-! ### The conditioning projection's product, `[64, 512] × [512, 128]` -/

theorem pay_lhs_condDot_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
theorem pay_lhs_condDot_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
theorem pay_rhs_condDot_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
theorem pay_rhs_condDot_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl
/-- The product into the zero accumulator at row `p`, column `q`: the sum over the contracted axis. -/
theorem pay_condDot_apply (a : FVec Ideal S64x512 .bf16) (b : FVec Ideal S512x128 .bf16) (p : Fin 64) (q : Fin 128) :
    matmul dot_S64x512_S512x128_S64x128_1_0_0_1_n_n none a b (constant (F := Ideal) S64x128 .f32 0x00000000#32) (ix2 p q)
      = ∑ k : Fin 512, a (ix2 p k) * b (ix2 k q) := by
  refine (Ideal.matmul_constant_zero_apply dot_S64x512_S512x128_S64x128_1_0_0_1_n_n none a b (ix2 p q)).trans ?_
  rw [← Equiv.sum_comp (contrEquiv1 dot_S64x512_S512x128_S64x128_1_0_0_1_n_n 512 rfl rfl).symm]
  refine Finset.sum_congr rfl fun k _ => ?_
  have hk := contrEquiv1_symm_val dot_S64x512_S512x128_S64x128_1_0_0_1_n_n 512 rfl rfl k
  have el : dot_S64x512_S512x128_S64x128_1_0_0_1_n_n.lhsIdx (ix2 p q) ((contrEquiv1 dot_S64x512_S512x128_S64x128_1_0_0_1_n_n 512 rfl rfl).symm k) = ix2 p k := funext fun c => Fin.ext (by
    match c with
    | ⟨0, _⟩ => exact pay_lhs_condDot_0 _ _
    | ⟨1, _⟩ => exact (pay_lhs_condDot_1 _ _).trans hk)
  have er : dot_S64x512_S512x128_S64x128_1_0_0_1_n_n.rhsIdx (ix2 p q) ((contrEquiv1 dot_S64x512_S512x128_S64x128_1_0_0_1_n_n 512 rfl rfl).symm k) = ix2 k q := funext fun c => Fin.ext (by
    match c with
    | ⟨0, _⟩ => exact (pay_rhs_condDot_0 _ _).trans hk
    | ⟨1, _⟩ => exact pay_rhs_condDot_1 _ _)
  rw [el, er]

/-! ### The geometry projection's product, `[2000, 8] × [8, 32]` -/

theorem pay_lhs_geoDot_0 (i : S2000x32.Idx) (q : dot_S2000x8_S8x32_S2000x32_1_0_0_1_n_n.contr.Idx) :
    (dot_S2000x8_S8x32_S2000x32_1_0_0_1_n_n.lhsIdx i q 0).val = (i 0).val := by
  unfold DotDims.lhsIdx
  rw [dif_neg (show ¬(0 : Fin S2000x8.rank) ∈ dot_S2000x8_S8x32_S2000x32_1_0_0_1_n_n.lhsBatch by decide), dif_pos (show (0 : Fin S2000x8.rank) ∈ dot_S2000x8_S8x32_S2000x32_1_0_0_1_n_n.lhsNonContracting by decide)]
  rfl
theorem pay_lhs_geoDot_1 (i : S2000x32.Idx) (q : dot_S2000x8_S8x32_S2000x32_1_0_0_1_n_n.contr.Idx) :
    (dot_S2000x8_S8x32_S2000x32_1_0_0_1_n_n.lhsIdx i q 1).val = (q ⟨0, by decide⟩).val :=
  dot_S2000x8_S8x32_S2000x32_1_0_0_1_n_n.lhsIdx_val_of_single rfl i q
theorem pay_rhs_geoDot_0 (i : S2000x32.Idx) (q : dot_S2000x8_S8x32_S2000x32_1_0_0_1_n_n.contr.Idx) :
    (dot_S2000x8_S8x32_S2000x32_1_0_0_1_n_n.rhsIdx i q 0).val = (q ⟨0, by decide⟩).val :=
  dot_S2000x8_S8x32_S2000x32_1_0_0_1_n_n.rhsIdx_val_of_single rfl i q
theorem pay_rhs_geoDot_1 (i : S2000x32.Idx) (q : dot_S2000x8_S8x32_S2000x32_1_0_0_1_n_n.contr.Idx) :
    (dot_S2000x8_S8x32_S2000x32_1_0_0_1_n_n.rhsIdx i q 1).val = (i 1).val := by
  unfold DotDims.rhsIdx
  rw [dif_neg (show ¬(1 : Fin S8x32.rank) ∈ dot_S2000x8_S8x32_S2000x32_1_0_0_1_n_n.rhsBatch by decide), dif_pos (show (1 : Fin S8x32.rank) ∈ dot_S2000x8_S8x32_S2000x32_1_0_0_1_n_n.rhsNonContracting by decide)]
  rfl
/-- The product into the zero accumulator at row `p`, column `q`: the sum over the contracted axis. -/
theorem pay_geoDot_apply (a : FVec Ideal S2000x8 .bf16) (b : FVec Ideal S8x32 .bf16) (p : Fin 2000) (q : Fin 32) :
    matmul dot_S2000x8_S8x32_S2000x32_1_0_0_1_n_n none a b (constant (F := Ideal) S2000x32 .f32 0x00000000#32) (ix2 p q)
      = ∑ k : Fin 8, a (ix2 p k) * b (ix2 k q) := by
  refine (Ideal.matmul_constant_zero_apply dot_S2000x8_S8x32_S2000x32_1_0_0_1_n_n none a b (ix2 p q)).trans ?_
  rw [← Equiv.sum_comp (contrEquiv1 dot_S2000x8_S8x32_S2000x32_1_0_0_1_n_n 8 rfl rfl).symm]
  refine Finset.sum_congr rfl fun k _ => ?_
  have hk := contrEquiv1_symm_val dot_S2000x8_S8x32_S2000x32_1_0_0_1_n_n 8 rfl rfl k
  have el : dot_S2000x8_S8x32_S2000x32_1_0_0_1_n_n.lhsIdx (ix2 p q) ((contrEquiv1 dot_S2000x8_S8x32_S2000x32_1_0_0_1_n_n 8 rfl rfl).symm k) = ix2 p k := funext fun c => Fin.ext (by
    match c with
    | ⟨0, _⟩ => exact pay_lhs_geoDot_0 _ _
    | ⟨1, _⟩ => exact (pay_lhs_geoDot_1 _ _).trans hk)
  have er : dot_S2000x8_S8x32_S2000x32_1_0_0_1_n_n.rhsIdx (ix2 p q) ((contrEquiv1 dot_S2000x8_S8x32_S2000x32_1_0_0_1_n_n 8 rfl rfl).symm k) = ix2 k q := funext fun c => Fin.ext (by
    match c with
    | ⟨0, _⟩ => exact (pay_rhs_geoDot_0 _ _).trans hk
    | ⟨1, _⟩ => exact pay_rhs_geoDot_1 _ _)
  rw [el, er]

/-! ### The fused path's product, `[2000, 96] × [96, 64]` -/

theorem pay_lhs_fuseDot_0 (i : S2000x64.Idx) (q : dot_S2000x96_S96x64_S2000x64_1_0_0_1_n_n.contr.Idx) :
    (dot_S2000x96_S96x64_S2000x64_1_0_0_1_n_n.lhsIdx i q 0).val = (i 0).val := by
  unfold DotDims.lhsIdx
  rw [dif_neg (show ¬(0 : Fin S2000x96.rank) ∈ dot_S2000x96_S96x64_S2000x64_1_0_0_1_n_n.lhsBatch by decide), dif_pos (show (0 : Fin S2000x96.rank) ∈ dot_S2000x96_S96x64_S2000x64_1_0_0_1_n_n.lhsNonContracting by decide)]
  rfl
theorem pay_lhs_fuseDot_1 (i : S2000x64.Idx) (q : dot_S2000x96_S96x64_S2000x64_1_0_0_1_n_n.contr.Idx) :
    (dot_S2000x96_S96x64_S2000x64_1_0_0_1_n_n.lhsIdx i q 1).val = (q ⟨0, by decide⟩).val :=
  dot_S2000x96_S96x64_S2000x64_1_0_0_1_n_n.lhsIdx_val_of_single rfl i q
theorem pay_rhs_fuseDot_0 (i : S2000x64.Idx) (q : dot_S2000x96_S96x64_S2000x64_1_0_0_1_n_n.contr.Idx) :
    (dot_S2000x96_S96x64_S2000x64_1_0_0_1_n_n.rhsIdx i q 0).val = (q ⟨0, by decide⟩).val :=
  dot_S2000x96_S96x64_S2000x64_1_0_0_1_n_n.rhsIdx_val_of_single rfl i q
theorem pay_rhs_fuseDot_1 (i : S2000x64.Idx) (q : dot_S2000x96_S96x64_S2000x64_1_0_0_1_n_n.contr.Idx) :
    (dot_S2000x96_S96x64_S2000x64_1_0_0_1_n_n.rhsIdx i q 1).val = (i 1).val := by
  unfold DotDims.rhsIdx
  rw [dif_neg (show ¬(1 : Fin S96x64.rank) ∈ dot_S2000x96_S96x64_S2000x64_1_0_0_1_n_n.rhsBatch by decide), dif_pos (show (1 : Fin S96x64.rank) ∈ dot_S2000x96_S96x64_S2000x64_1_0_0_1_n_n.rhsNonContracting by decide)]
  rfl
/-- The product into the zero accumulator at row `p`, column `q`: the sum over the contracted axis. -/
theorem pay_fuseDot_apply (a : FVec Ideal S2000x96 .bf16) (b : FVec Ideal S96x64 .bf16) (p : Fin 2000) (q : Fin 64) :
    matmul dot_S2000x96_S96x64_S2000x64_1_0_0_1_n_n none a b (constant (F := Ideal) S2000x64 .f32 0x00000000#32) (ix2 p q)
      = ∑ k : Fin 96, a (ix2 p k) * b (ix2 k q) := by
  refine (Ideal.matmul_constant_zero_apply dot_S2000x96_S96x64_S2000x64_1_0_0_1_n_n none a b (ix2 p q)).trans ?_
  rw [← Equiv.sum_comp (contrEquiv1 dot_S2000x96_S96x64_S2000x64_1_0_0_1_n_n 96 rfl rfl).symm]
  refine Finset.sum_congr rfl fun k _ => ?_
  have hk := contrEquiv1_symm_val dot_S2000x96_S96x64_S2000x64_1_0_0_1_n_n 96 rfl rfl k
  have el : dot_S2000x96_S96x64_S2000x64_1_0_0_1_n_n.lhsIdx (ix2 p q) ((contrEquiv1 dot_S2000x96_S96x64_S2000x64_1_0_0_1_n_n 96 rfl rfl).symm k) = ix2 p k := funext fun c => Fin.ext (by
    match c with
    | ⟨0, _⟩ => exact pay_lhs_fuseDot_0 _ _
    | ⟨1, _⟩ => exact (pay_lhs_fuseDot_1 _ _).trans hk)
  have er : dot_S2000x96_S96x64_S2000x64_1_0_0_1_n_n.rhsIdx (ix2 p q) ((contrEquiv1 dot_S2000x96_S96x64_S2000x64_1_0_0_1_n_n 96 rfl rfl).symm k) = ix2 k q := funext fun c => Fin.ext (by
    match c with
    | ⟨0, _⟩ => exact (pay_rhs_fuseDot_0 _ _).trans hk
    | ⟨1, _⟩ => exact pay_rhs_fuseDot_1 _ _)
  rw [el, er]

/-! ## The node projection -/

/-- The node projection's block: `5000` node rows against `Wn`, plus the bias row. -/
theorem nodeProj_payload (x0 : Vec Ideal S5000x64 .f32) (x1 : Vec Ideal S64x64 .f32) (x2 : Vec Ideal S1x64 .f32) :
    k0_pay1 (F := Ideal) x0 x1 x2 = affine (n := 5000) (k := 64) (m := 64) x0 x1 x2 := by
  funext j
  obtain ⟨p, q, rfl⟩ : ∃ (p : Fin 5000) (q : Fin 64), j = ix2 p q := ⟨j 0, j 1, eq_ix2 j⟩
  unfold k0_pay1 affine
  rw [addf_apply, pay_nodeDot_apply, shapeCast_self, broadcastTo_1b_ab_apply]
  rfl

/-! ## The conditioning projection -/

/-- The conditioning projection's one block: the `64` graph rows against `Wc`, plus the bias row. -/
theorem condProj_payload (x0 : Vec Ideal S64x512 .f32) (x1 : Vec Ideal S512x128 .f32) (x2 : Vec Ideal S1x128 .f32) :
    k1_pay1 (F := Ideal) x0 x1 x2 = affine (n := 64) (k := 512) (m := 128) x0 x1 x2 := by
  funext j
  obtain ⟨p, q, rfl⟩ : ∃ (p : Fin 64) (q : Fin 128), j = ix2 p q := ⟨j 0, j 1, eq_ix2 j⟩
  unfold k1_pay1 affine
  rw [addf_apply, pay_condDot_apply, shapeCast_self, broadcastTo_1b_ab_apply]
  rfl

/-! ## The edge kernel -/

/-- The joined block `[2000, 96]` at a column below `64` is the left piece there. -/
theorem pay_concat_left (a : FVec Ideal S2000x64 .f32) (b : FVec Ideal S2000x32 .f32) (p : Fin 2000) (k : Fin 96)
    (h : k.val < 64) :
    concatenate S2000x96 1 [⟨S2000x64, a⟩, ⟨S2000x32, b⟩] concatenates_S2000x64_S2000x32_S2000x96_d1 (ix2 p k)
      = a (ix2 p ⟨k.val, h⟩) :=
  concatenate_pair_apply_left 1 a b concatenates_S2000x64_S2000x32_S2000x96_d1 (ix2 p k) rfl (ix2 p ⟨k.val, h⟩)
    (fun c => by match c with | ⟨0, _⟩ => rfl | ⟨1, _⟩ => rfl)

/-- The joined block at a column from `64` on is the right piece at the column less `64`. -/
theorem pay_concat_right (a : FVec Ideal S2000x64 .f32) (b : FVec Ideal S2000x32 .f32) (p : Fin 2000) (k : Fin 96)
    (h : ¬ k.val < 64) :
    concatenate S2000x96 1 [⟨S2000x64, a⟩, ⟨S2000x32, b⟩] concatenates_S2000x64_S2000x32_S2000x96_d1 (ix2 p k)
      = b (ix2 p ⟨k.val - 64, by have := k.isLt; omega⟩) :=
  concatenate_pair_apply_right 1 a b concatenates_S2000x64_S2000x32_S2000x96_d1 (ix2 p k) rfl rfl
    (ix2 p ⟨k.val - 64, by have := k.isLt; omega⟩)
    (fun c hc => by match c with | ⟨0, _⟩ => rfl | ⟨1, _⟩ => exact absurd rfl hc)
    (by show (k.val - 64) + 64 = k.val; omega)

/-- The block the edge kernel joins, at row `p` and column `k`, is `joined` there: the endpoint rows' product
    below column `64`, the projected geometry from there on. -/
theorem pay_joined_apply (v0 v2 : FVec Ideal S2000x64 .f32) (v5 : FVec Ideal S2000x8 .f32) (v7 : FVec Ideal S8x32 .f32)
    (v10 : FVec Ideal S1x32 .f32) (p : Fin 2000) (k : Fin 96) :
    concatenate S2000x96 1
        [⟨S2000x64, mulf v0 v2⟩,
         ⟨S2000x32, addf (matmul dot_S2000x8_S8x32_S2000x32_1_0_0_1_n_n none (truncf .bf16 v5 bitsLt_bf16_f32)
            (truncf .bf16 v7 bitsLt_bf16_f32) (constant (F := Ideal) S2000x32 .f32 0x00000000#32))
            (broadcastTo S2000x32 v10 broadcasts_S1x32_S2000x32)⟩]
        concatenates_S2000x64_S2000x32_S2000x96_d1 (ix2 p k)
      = joined v0 v2 v5 v7 v10 (ix2 p k) := by
  unfold joined
  by_cases h : k.val < 64
  · rw [dif_pos h, pay_concat_left _ _ p k h]
    rfl
  · rw [dif_neg h, pay_concat_right _ _ p k h, addf_apply, pay_geoDot_apply, broadcastTo_1b_ab_apply]
    rfl

/-- The edge kernel's block: `2000` edges' fused path. The payload's loads are, in its order, the two endpoint
    blocks, the geometry block, `Wg`, the bias row, `Wx`, then the scale and shift blocks. -/
theorem edgeFuse_payload (v0 v2 : Vec Ideal S2000x64 .f32) (v5 : Vec Ideal S2000x8 .f32) (v7 : Vec Ideal S8x32 .f32)
    (v10 : Vec Ideal S1x32 .f32) (v15 : Vec Ideal S96x64 .f32) (v19 v21 : Vec Ideal S2000x64 .f32) :
    k2_pay1 (F := Ideal) v0 v2 v5 v7 v10 v15 v19 v21 = fuse (n := 2000) v0 v2 v5 v19 v21 v7 v10 v15 := by
  funext j
  obtain ⟨p, q, rfl⟩ : ∃ (p : Fin 2000) (q : Fin 64), j = ix2 p q := ⟨j 0, j 1, eq_ix2 j⟩
  unfold k2_pay1 fuse
  rw [maximumf_apply, addf_apply, mulf_apply, pay_fuseDot_apply, broadcast_apply]
  simp only [shapeCast_self, truncf_apply, pay_joined_apply]
  rfl

end Cert.FilmEdge

end
-- ==== Proof.Blocks.lean ====
/-
  From blocks to arrays, for each of the three kernels, at ANY contents `V` of the buffers when the region is
  entered: every grid point writes back the block of rows it owns, that block is the row-wise function of
  `Spec.lean` at the block's extent applied to the point's input blocks (`Payload.lean`), and the input blocks
  are the same rows of the arrays; the blocks tile the result array, so it ends holding the row-wise function at
  the full extent of the region's input arrays.
-/
import proofs.«410433_j62027917688906_1_alg».proof.Proof.Gen.KernelIdeal.Frame
import proofs.«410433_j62027917688906_1_alg».proof.Proof.Payload
import Idealize.ShloMosaic.Lib.Pipeline.Value

set_option maxRecDepth 16384

noncomputable section

namespace Cert.FilmEdge

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer rectangle, as the constant function. -/
theorem blk_zero_offsets : (![0, 0] : Fin 2 → Nat) = fun _ => 0 := funext fun a => by fin_cases a <;> rfl

/-- `affine` reads one row of `x`, with the weights and the bias row replaced by equal ones. -/
theorem blk_affine_rows {n n' k m : Nat} (x : Arr n k) (x' : Arr n' k) (w w' : Arr k m) (b b' : Arr 1 m)
    (hw : w = w') (hb : b = b')
    (i : (⟨2, ![n, m]⟩ : Shape).Idx) (i' : (⟨2, ![n', m]⟩ : Shape).Idx) (hc : (col i).val = (col i').val)
    (hx : ∀ q : Fin k, x (ix2 (row i) q) = x' (ix2 (row i') q)) : affine x w b i = affine x' w' b' i' := by
  subst hw hb
  exact affine_rows x x' w b i i' hc hx

/-! ## The node projection -/

/-- The block indices of the node projection's windows at grid point `t`: the node rows and the result move with the
    point, the weights and the bias row stay. -/
theorem blk_nodeProj_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the whole of `Wn`. -/
theorem blk_nodeProj_weights (c : Dev nD) (t : Fin cfg0.N) :
    (iblk0 V c 1 t : Vec Ideal S64x64 .f32) = (V c main_arg5 : S64x64.Idx → EReal) := by
  obtain ⟨-, -, e0, e1, -⟩ := blk_nodeProj_index t
  funext y
  unfold iblk0
  rw [View.read_apply]
  show V c main_arg5 (((cfg0.win 1).blk t).view.emb y) = V c main_arg5 y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias row's block at any point is the whole row. -/
theorem blk_nodeProj_bias (c : Dev nD) (t : Fin cfg0.N) :
    (iblk0 V c 2 t : Vec Ideal S1x64 .f32) = (V c main_v0 : S1x64.Idx → EReal) := by
  obtain ⟨-, -, -, -, e0, e1, -⟩ := blk_nodeProj_index t
  funext y
  unfold iblk0
  rw [View.read_apply]
  show V c main_v0 (((cfg0.win 2).blk t).view.emb y) = V c main_v0 y
  congr 1
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The node block at point `t` holds rows `5000 t … 5000 t + 4999` of the node features. -/
theorem blk_nodeProj_rows (c : Dev nD) (t : Fin cfg0.N) (y : S5000x64.Idx) (i : S100000x64.Idx)
    (h0 : (i 0).val = t.val * 5000 + (y 0).val) (h1 : (i 1).val = (y 1).val) :
    (iblk0 V c 0 t : Vec Ideal S5000x64 .f32) y = (V c main_arg0 : S100000x64.Idx → EReal) i := by
  obtain ⟨e0, e1, -⟩ := blk_nodeProj_index t
  unfold iblk0
  rw [View.read_apply]
  show V c main_arg0 (((cfg0.win 0).blk t).view.emb y) = V c main_arg0 i
  congr 1
  funext a; apply Fin.ext
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- What point `t` writes back is block `t` of `affine` of the whole arrays. -/
theorem blk_nodeProj_flushed (c : Dev nD) (t : Fin cfg0.N) :
    (dat0 (F := Ideal) V c).flushed 3 t = ((cfg0.win 3).blk t).view.read (Elt Ideal)
      (affine (n := 100000) (k := 64) (m := 64) (V c main_arg0) (V c main_arg5) (V c main_v0)) := by
  show (cfg0.win 3).cut (grid0.coords t) ((dat0 (F := Ideal) V c).after 3 t) = _
  rw [after0_3]
  unfold out0_3
  rw [View.canon_unit_zero blk_zero_offsets]
  simp only [View.ld_unit_zero (S := S5000x64) blk_zero_offsets, View.ld_unit_zero (S := S64x64) blk_zero_offsets,
    View.ld_unit_zero (S := S1x64) blk_zero_offsets]
  rw [nodeProj_payload]
  obtain ⟨-, -, -, -, -, -, e0, e1⟩ := blk_nodeProj_index t
  funext j
  show affine (n := 5000) (k := 64) (m := 64) (iblk0 V c 0 t) (iblk0 V c 1 t) (iblk0 V c 2 t) j
    = affine (n := 100000) (k := 64) (m := 64) (V c main_arg0) (V c main_arg5) (V c main_v0) (((cfg0.win 3).blk t).view.emb j)
  have hj0 : ((((cfg0.win 3).blk t).view.emb j : S100000x64.Idx) 0).val = t.val * 5000 + (j 0).val := by
    show win0_3.index t (0 : Fin 2) * 5000 + 1 * (j 0).val = _; omega
  have hj1 : ((((cfg0.win 3).blk t).view.emb j : S100000x64.Idx) 1).val = (j 1).val := by
    show win0_3.index t (1 : Fin 2) * 64 + 1 * (j 1).val = _; omega
  refine blk_affine_rows _ _ _ _ _ _ (blk_nodeProj_weights V c t) (blk_nodeProj_bias V c t) j _ hj1.symm fun q => ?_
  exact blk_nodeProj_rows V c t _ _ hj0 rfl

/-- An index of the result is in point `t`'s block iff each coordinate is in the block's range on its axis. -/
theorem blk_nodeProj_mem (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Row `r` of the result is in the block of point `r / 5000`. -/
theorem blk_nodeProj_cover (i : S100000x64.Idx) :
    ∃ t : Fin cfg0.N, (cfg0.win 3).flush t = true ∧ i ∈ ((cfg0.win 3).blk t).view.set := by
  have h0 : (i 0).val < 100000 := (i 0).isLt
  have h1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := blk_nodeProj_index t
  refine ⟨t, flush0_3 t, ?_⟩
  rw [blk_nodeProj_mem]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The node projection's result array: `affine` of the node features, `Wn` and the bias row as the region finds them. -/
theorem nodeProj_array (c : Dev nD) :
    (dat0 (F := Ideal) V c).arrAt 3 cfg0.N
      = affine (n := 100000) (k := 64) (m := 64) (V c main_arg0) (V c main_arg5) (V c main_v0) :=
  (dat0 (F := Ideal) V c).arrAt_eq_of_cover 3
    (affine (n := 100000) (k := 64) (m := 64) (V c main_arg0) (V c main_arg5) (V c main_v0))
    (fun t _ => blk_nodeProj_flushed V c t) blk_nodeProj_cover

/-! ## The conditioning projection -/

/-- Every window of the conditioning projection is its whole array at its one point: all block indices are zero. -/
theorem blk_condProj_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The weights' block is the whole of `Wc`. -/
theorem blk_condProj_weights (c : Dev nD) (t : Fin cfg1.N) :
    (iblk1 V c 1 t : Vec Ideal S512x128 .f32) = (V c main_arg9 : S512x128.Idx → EReal) := by
  obtain ⟨-, -, e0, e1, -⟩ := blk_condProj_index t
  funext y
  unfold iblk1
  rw [View.read_apply]
  show V c main_arg9 (((cfg1.win 1).blk t).view.emb y) = V c main_arg9 y
  congr 1
  funext a; apply Fin.ext
  match a with
  | ⟨0, _⟩ => show win1_1.index t (0 : Fin 2) * 512 + 1 * (y 0).val = (y 0).val; omega
  | ⟨1, _⟩ => show win1_1.index t (1 : Fin 2) * 128 + 1 * (y 1).val = (y 1).val; omega

/-- The bias row's block is the whole row. -/
theorem blk_condProj_bias (c : Dev nD) (t : Fin cfg1.N) :
    (iblk1 V c 2 t : Vec Ideal S1x128 .f32) = (V c main_v8 : S1x128.Idx → EReal) := by
  obtain ⟨-, -, -, -, e0, e1, -⟩ := blk_condProj_index t
  funext y
  unfold iblk1
  rw [View.read_apply]
  show V c main_v8 (((cfg1.win 2).blk t).view.emb y) = V c main_v8 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The conditioning block holds the conditioning rows themselves. -/
theorem blk_condProj_rows (c : Dev nD) (t : Fin cfg1.N) (y : S64x512.Idx) (i : S64x512.Idx)
    (h0 : (i 0).val = (y 0).val) (h1 : (i 1).val = (y 1).val) :
    (iblk1 V c 0 t : Vec Ideal S64x512 .f32) y = (V c main_arg3 : S64x512.Idx → EReal) i := by
  obtain ⟨e0, e1, -⟩ := blk_condProj_index t
  unfold iblk1
  rw [View.read_apply]
  show V c main_arg3 (((cfg1.win 0).blk t).view.emb y) = V c main_arg3 i
  congr 1
  funext a; apply Fin.ext
  match a with
  | ⟨0, _⟩ => show win1_0.index t (0 : Fin 2) * 64 + 1 * (y 0).val = (i 0).val; omega
  | ⟨1, _⟩ => show win1_0.index t (1 : Fin 2) * 512 + 1 * (y 1).val = (i 1).val; omega

/-- What the one point writes back is `affine` of the whole arrays, read through the one block. -/
theorem blk_condProj_flushed (c : Dev nD) (t : Fin cfg1.N) :
    (dat1 (F := Ideal) V c).flushed 3 t = ((cfg1.win 3).blk t).view.read (Elt Ideal)
      (affine (n := 64) (k := 512) (m := 128) (V c main_arg3) (V c main_arg9) (V c main_v8)) := by
  show (cfg1.win 3).cut (grid1.coords t) ((dat1 (F := Ideal) V c).after 3 t) = _
  rw [after1_3]
  unfold out1_3
  rw [View.canon_unit_zero blk_zero_offsets]
  simp only [View.ld_unit_zero (S := S64x512) blk_zero_offsets, View.ld_unit_zero (S := S512x128) blk_zero_offsets,
    View.ld_unit_zero (S := S1x128) blk_zero_offsets]
  rw [condProj_payload]
  obtain ⟨-, -, -, -, -, -, e0, e1⟩ := blk_condProj_index t
  funext j
  show affine (n := 64) (k := 512) (m := 128) (iblk1 V c 0 t) (iblk1 V c 1 t) (iblk1 V c 2 t) j
    = affine (n := 64) (k := 512) (m := 128) (V c main_arg3) (V c main_arg9) (V c main_v8) (((cfg1.win 3).blk t).view.emb j)
  have hj0 : ((((cfg1.win 3).blk t).view.emb j : S64x128.Idx) 0).val = (j 0).val := by
    show win1_3.index t (0 : Fin 2) * 64 + 1 * (j 0).val = _; omega
  have hj1 : ((((cfg1.win 3).blk t).view.emb j : S64x128.Idx) 1).val = (j 1).val := by
    show win1_3.index t (1 : Fin 2) * 128 + 1 * (j 1).val = _; omega
  refine blk_affine_rows _ _ _ _ _ _ (blk_condProj_weights V c t) (blk_condProj_bias V c t) j _ hj1.symm fun q => ?_
  exact blk_condProj_rows V c t _ _ hj0 rfl

/-- An index of the result is in the point's block iff each coordinate is in the block's range on its axis. -/
theorem blk_condProj_mem (t : Fin cfg1.N) (i : S64x128.Idx) :
    i ∈ ((cfg1.win 3).blk t).view.set ↔ ∀ a : Fin 2, win1_3.index t a * S64x128.size a ≤ (i a).val
      ∧ (i a).val < win1_3.index t a * S64x128.size a + S64x128.size a := by
  show i ∈ ((View.whole main_v9).slice (win1_3.rect t)).set ↔ _
  rw [View.set_slice_whole, Rect.mem_set_unit]
  exact Iff.rfl

/-- The one point's block is the whole result. -/
theorem blk_condProj_cover (i : S64x128.Idx) :
    ∃ t : Fin cfg1.N, (cfg1.win 3).flush t = true ∧ i ∈ ((cfg1.win 3).blk t).view.set := by
  have h0 : (i 0).val < 64 := (i 0).isLt
  have h1 : (i 1).val < 128 := (i 1).isLt
  obtain ⟨-, -, -, -, -, -, e0, e1⟩ := blk_condProj_index t1_0
  refine ⟨t1_0, flush1_3 t1_0, ?_⟩
  rw [blk_condProj_mem]
  intro a
  match a with
  | ⟨0, _⟩ => show win1_3.index t1_0 (0 : Fin 2) * 64 ≤ (i 0).val ∧ (i 0).val < win1_3.index t1_0 (0 : Fin 2) * 64 + 64; omega
  | ⟨1, _⟩ => show win1_3.index t1_0 (1 : Fin 2) * 128 ≤ (i 1).val ∧ (i 1).val < win1_3.index t1_0 (1 : Fin 2) * 128 + 128; omega

/-- The conditioning projection's result array. -/
theorem condProj_array (c : Dev nD) :
    (dat1 (F := Ideal) V c).arrAt 3 cfg1.N
      = affine (n := 64) (k := 512) (m := 128) (V c main_arg3) (V c main_arg9) (V c main_v8) :=
  (dat1 (F := Ideal) V c).arrAt_eq_of_cover 3
    (affine (n := 64) (k := 512) (m := 128) (V c main_arg3) (V c main_arg9) (V c main_v8))
    (fun t _ => blk_condProj_flushed V c t) blk_condProj_cover

/-! ## Rows of the fused edge path -/

/-- `joined` at explicit coordinates: the endpoint rows' product left of column 64, the projected geometry from there on. -/
theorem blk_joined_apply {n : Nat} (src dst : Arr n 64) (geo : Arr n 8) (wg : Arr 8 32) (bg : Arr 1 32)
    (r : Fin n) (p : Fin 96) :
    joined src dst geo wg bg (ix2 r p)
      = if h : p.val < 64 then src (ix2 r ⟨p.val, h⟩) * dst (ix2 r ⟨p.val, h⟩)
        else affine geo wg bg (ix2 r ⟨p.val - 64, by have := p.isLt; omega⟩) := rfl

/-- `joined` reads one row of each per-edge array: rows of the result are rows of the arrays carried through. -/
theorem blk_joined_rows {n n' : Nat} (src dst : Arr n 64) (geo : Arr n 8) (src' dst' : Arr n' 64) (geo' : Arr n' 8)
    (wg : Arr 8 32) (bg : Arr 1 32) (r : Fin n) (r' : Fin n') (p : Fin 96)
    (hs : ∀ k : Fin 64, src (ix2 r k) = src' (ix2 r' k)) (hd : ∀ k : Fin 64, dst (ix2 r k) = dst' (ix2 r' k))
    (hg : ∀ k : Fin 8, geo (ix2 r k) = geo' (ix2 r' k)) :
    joined src dst geo wg bg (ix2 r p) = joined src' dst' geo' wg bg (ix2 r' p) := by
  rw [blk_joined_apply, blk_joined_apply]
  by_cases h : p.val < 64
  · rw [dif_pos h, dif_pos h, hs, hd]
  · rw [dif_neg h, dif_neg h]
    exact affine_rows geo geo' wg bg _ _ rfl fun k => hg k
/-- `fuse` reads one row of each per-edge array (and the small matrices may be replaced by equal ones). -/
theorem blk_fuse_rows {n n' : Nat} (src dst : Arr n 64) (geo : Arr n 8) (gam bet : Arr n 64)
    (src' dst' : Arr n' 64) (geo' : Arr n' 8) (gam' bet' : Arr n' 64)
    (wg wg' : Arr 8 32) (bg bg' : Arr 1 32) (wx wx' : Arr 96 64) (hwg : wg = wg') (hbg : bg = bg') (hwx : wx = wx')
    (i : (⟨2, ![n, 64]⟩ : Shape).Idx) (i' : (⟨2, ![n', 64]⟩ : Shape).Idx) (hc : (col i).val = (col i').val)
    (hs : ∀ k : Fin 64, src (ix2 (row i) k) = src' (ix2 (row i') k))
    (hd : ∀ k : Fin 64, dst (ix2 (row i) k) = dst' (ix2 (row i') k))
    (hg : ∀ k : Fin 8, geo (ix2 (row i) k) = geo' (ix2 (row i') k))
    (hgam : ∀ k : Fin 64, gam (ix2 (row i) k) = gam' (ix2 (row i') k))
    (hbet : ∀ k : Fin 64, bet (ix2 (row i) k) = bet' (ix2 (row i') k)) :
    fuse src dst geo gam bet wg bg wx i = fuse src' dst' geo' gam' bet' wg' bg' wx' i' := by
  subst hwg hbg hwx
  obtain ⟨r, q, rfl⟩ : ∃ (r : Fin n) (q : Fin 64), i = ix2 r q := ⟨i 0, i 1, eq_ix2 i⟩
  obtain ⟨r', q', rfl⟩ : ∃ (r' : Fin n') (q' : Fin 64), i' = ix2 r' q' := ⟨i' 0, i' 1, eq_ix2 i'⟩
  obtain rfl : q = q' := Fin.ext hc
  have hsum : (∑ p : Fin 96, joined src dst geo wg bg (ix2 r p) * wx (ix2 p q))
      = ∑ p : Fin 96, joined src' dst' geo' wg bg (ix2 r' p) * wx (ix2 p q) :=
    Finset.sum_congr rfl fun p _ => by rw [blk_joined_rows src dst geo src' dst' geo' wg bg r r' p hs hd hg]
  have hgam' : gam (ix2 r q) = gam' (ix2 r' q) := hgam q
  have hbet' : bet (ix2 r q) = bet' (ix2 r' q) := hbet q
  unfold fuse
  show max ((∑ p : Fin 96, joined src dst geo wg bg (ix2 r p) * wx (ix2 p q)) * gam (ix2 r q) + bet (ix2 r q)) _
    = max ((∑ p : Fin 96, joined src' dst' geo' wg bg (ix2 r' p) * wx (ix2 p q)) * gam' (ix2 r' q) + bet' (ix2 r' q)) _
  rw [hsum, hgam', hbet']

/-! ## The edge kernel -/

/-- The block indices of the edge kernel's windows at grid point `t`, window by window: the five per-edge inputs and
    the result move with the point, `Wg`, the bias row and `Wx` stay. -/
theorem blk_edgeFuse_index : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- The source endpoints' block at point `t` holds rows `2000 t … 2000 t + 1999` of the array. -/
theorem blk_edgeFuse_rows0 (c : Dev nD) (t : Fin cfg2.N) (y : S2000x64.Idx) (i : S800000x64.Idx)
    (h0 : (i 0).val = t.val * 2000 + (y 0).val) (h1 : (i 1).val = (y 1).val) :
    (iblk2 V c 0 t : Vec Ideal S2000x64 .f32) y = (V c main_v6 : S800000x64.Idx → EReal) i := by
  obtain ⟨e0, e1⟩ := (blk_edgeFuse_index t).1
  unfold iblk2
  rw [View.read_apply]
  show V c main_v6 (((cfg2.win 0).blk t).view.emb y) = V c main_v6 i
  congr 1
  funext a; apply Fin.ext
  match a with
  | ⟨0, _⟩ => show win2_0.index t (0 : Fin 2) * 2000 + 1 * (y 0).val = (i 0).val; omega
  | ⟨1, _⟩ => show win2_0.index t (1 : Fin 2) * 64 + 1 * (y 1).val = (i 1).val; omega

/-- The destination endpoints' block at point `t` holds rows `2000 t … 2000 t + 1999` of the array. -/
theorem blk_edgeFuse_rows1 (c : Dev nD) (t : Fin cfg2.N) (y : S2000x64.Idx) (i : S800000x64.Idx)
    (h0 : (i 0).val = t.val * 2000 + (y 0).val) (h1 : (i 1).val = (y 1).val) :
    (iblk2 V c 1 t : Vec Ideal S2000x64 .f32) y = (V c main_v7 : S800000x64.Idx → EReal) i := by
  obtain ⟨e0, e1⟩ := (blk_edgeFuse_index t).2.1
  unfold iblk2
  rw [View.read_apply]
  show V c main_v7 (((cfg2.win 1).blk t).view.emb y) = V c main_v7 i
  congr 1
  funext a; apply Fin.ext
  match a with
  | ⟨0, _⟩ => show win2_1.index t (0 : Fin 2) * 2000 + 1 * (y 0).val = (i 0).val; omega
  | ⟨1, _⟩ => show win2_1.index t (1 : Fin 2) * 64 + 1 * (y 1).val = (i 1).val; omega

/-- The geometry block at point `t` holds rows `2000 t … 2000 t + 1999` of the array. -/
theorem blk_edgeFuse_rows2 (c : Dev nD) (t : Fin cfg2.N) (y : S2000x8.Idx) (i : S800000x8.Idx)
    (h0 : (i 0).val = t.val * 2000 + (y 0).val) (h1 : (i 1).val = (y 1).val) :
    (iblk2 V c 2 t : Vec Ideal S2000x8 .f32) y = (V c main_arg2 : S800000x8.Idx → EReal) i := by
  obtain ⟨e0, e1⟩ := (blk_edgeFuse_index t).2.2.1
  unfold iblk2
  rw [View.read_apply]
  show V c main_arg2 (((cfg2.win 2).blk t).view.emb y) = V c main_arg2 i
  congr 1
  funext a; apply Fin.ext
  match a with
  | ⟨0, _⟩ => show win2_2.index t (0 : Fin 2) * 2000 + 1 * (y 0).val = (i 0).val; omega
  | ⟨1, _⟩ => show win2_2.index t (1 : Fin 2) * 8 + 1 * (y 1).val = (i 1).val; omega

/-- The scale block at point `t` holds rows `2000 t … 2000 t + 1999` of the array. -/
theorem blk_edgeFuse_rows3 (c : Dev nD) (t : Fin cfg2.N) (y : S2000x64.Idx) (i : S800000x64.Idx)
    (h0 : (i 0).val = t.val * 2000 + (y 0).val) (h1 : (i 1).val = (y 1).val) :
    (iblk2 V c 3 t : Vec Ideal S2000x64 .f32) y = (V c main_v14 : S800000x64.Idx → EReal) i := by
  obtain ⟨e0, e1⟩ := (blk_edgeFuse_index t).2.2.2.1
  unfold iblk2
  rw [View.read_apply]
  show V c main_v14 (((cfg2.win 3).blk t).view.emb y) = V c main_v14 i
  congr 1
  funext a; apply Fin.ext
  match a with
  | ⟨0, _⟩ => show win2_3.index t (0 : Fin 2) * 2000 + 1 * (y 0).val = (i 0).val; omega
  | ⟨1, _⟩ => show win2_3.index t (1 : Fin 2) * 64 + 1 * (y 1).val = (i 1).val; omega

/-- The shift block at point `t` holds rows `2000 t … 2000 t + 1999` of the array. -/
theorem blk_edgeFuse_rows4 (c : Dev nD) (t : Fin cfg2.N) (y : S2000x64.Idx) (i : S800000x64.Idx)
    (h0 : (i 0).val = t.val * 2000 + (y 0).val) (h1 : (i 1).val = (y 1).val) :
    (iblk2 V c 4 t : Vec Ideal S2000x64 .f32) y = (V c main_v15 : S800000x64.Idx → EReal) i := by
  obtain ⟨e0, e1⟩ := (blk_edgeFuse_index t).2.2.2.2.1
  unfold iblk2
  rw [View.read_apply]
  show V c main_v15 (((cfg2.win 4).blk t).view.emb y) = V c main_v15 i
  congr 1
  funext a; apply Fin.ext
  match a with
  | ⟨0, _⟩ => show win2_4.index t (0 : Fin 2) * 2000 + 1 * (y 0).val = (i 0).val; omega
  | ⟨1, _⟩ => show win2_4.index t (1 : Fin 2) * 64 + 1 * (y 1).val = (i 1).val; omega

/-- The geometry weights' block at any point is the whole of `Wg`. -/
theorem blk_edgeFuse_wg (c : Dev nD) (t : Fin cfg2.N) :
    (iblk2 V c 5 t : Vec Ideal S8x32 .f32) = (V c main_arg7 : S8x32.Idx → EReal) := by
  obtain ⟨e0, e1⟩ := (blk_edgeFuse_index t).2.2.2.2.2.1
  funext y
  unfold iblk2
  rw [View.read_apply]
  show V c main_arg7 (((cfg2.win 5).blk t).view.emb y) = V c main_arg7 y
  congr 1
  funext a; apply Fin.ext
  match a with
  | ⟨0, _⟩ => show win2_5.index t (0 : Fin 2) * 8 + 1 * (y 0).val = (y 0).val; omega
  | ⟨1, _⟩ => show win2_5.index t (1 : Fin 2) * 32 + 1 * (y 1).val = (y 1).val; omega

/-- The geometry bias row's block at any point is the whole row. -/
theorem blk_edgeFuse_bg (c : Dev nD) (t : Fin cfg2.N) :
    (iblk2 V c 6 t : Vec Ideal S1x32 .f32) = (V c main_v16 : S1x32.Idx → EReal) := by
  obtain ⟨e0, e1⟩ := (blk_edgeFuse_index t).2.2.2.2.2.2.1
  funext y
  unfold iblk2
  rw [View.read_apply]
  show V c main_v16 (((cfg2.win 6).blk t).view.emb y) = V c main_v16 y
  congr 1
  funext a; apply Fin.ext
  match a with
  | ⟨0, _⟩ => show win2_6.index t (0 : Fin 2) * 1 + 1 * (y 0).val = (y 0).val; omega
  | ⟨1, _⟩ => show win2_6.index t (1 : Fin 2) * 32 + 1 * (y 1).val = (y 1).val; omega

/-- The mixing weights' block at any point is the whole of `Wx`. -/
theorem blk_edgeFuse_wx (c : Dev nD) (t : Fin cfg2.N) :
    (iblk2 V c 7 t : Vec Ideal S96x64 .f32) = (V c main_arg11 : S96x64.Idx → EReal) := by
  obtain ⟨e0, e1⟩ := (blk_edgeFuse_index t).2.2.2.2.2.2.2.1
  funext y
  unfold iblk2
  rw [View.read_apply]
  show V c main_arg11 (((cfg2.win 7).blk t).view.emb y) = V c main_arg11 y
  congr 1
  funext a; apply Fin.ext
  match a with
  | ⟨0, _⟩ => show win2_7.index t (0 : Fin 2) * 96 + 1 * (y 0).val = (y 0).val; omega
  | ⟨1, _⟩ => show win2_7.index t (1 : Fin 2) * 64 + 1 * (y 1).val = (y 1).val; omega

/-- What point `t` writes back is block `t` of `fuse` of the whole arrays. -/
theorem blk_edgeFuse_flushed (c : Dev nD) (t : Fin cfg2.N) :
    (dat2 (F := Ideal) V c).flushed 8 t = ((cfg2.win 8).blk t).view.read (Elt Ideal)
      (fuse (n := 800000) (V c main_v6) (V c main_v7) (V c main_arg2) (V c main_v14) (V c main_v15)
        (V c main_arg7) (V c main_v16) (V c main_arg11)) := by
  show (cfg2.win 8).cut (grid2.coords t) ((dat2 (F := Ideal) V c).after 8 t) = _
  rw [after2_8]
  unfold out2_8
  rw [View.canon_unit_zero blk_zero_offsets]
  simp only [View.ld_unit_zero (S := S2000x64) blk_zero_offsets, View.ld_unit_zero (S := S2000x8) blk_zero_offsets,
    View.ld_unit_zero (S := S8x32) blk_zero_offsets, View.ld_unit_zero (S := S1x32) blk_zero_offsets,
    View.ld_unit_zero (S := S96x64) blk_zero_offsets]
  rw [edgeFuse_payload]
  obtain ⟨e0, e1⟩ := (blk_edgeFuse_index t).2.2.2.2.2.2.2.2
  funext j
  show fuse (n := 2000) (iblk2 V c 0 t) (iblk2 V c 1 t) (iblk2 V c 2 t) (iblk2 V c 3 t) (iblk2 V c 4 t)
      (iblk2 V c 5 t) (iblk2 V c 6 t) (iblk2 V c 7 t) j
    = fuse (n := 800000) (V c main_v6) (V c main_v7) (V c main_arg2) (V c main_v14) (V c main_v15)
      (V c main_arg7) (V c main_v16) (V c main_arg11) (((cfg2.win 8).blk t).view.emb j)
  have hj0 : ((((cfg2.win 8).blk t).view.emb j : S800000x64.Idx) 0).val = t.val * 2000 + (j 0).val := by
    show win2_8.index t (0 : Fin 2) * 2000 + 1 * (j 0).val = _; omega
  have hj1 : ((((cfg2.win 8).blk t).view.emb j : S800000x64.Idx) 1).val = (j 1).val := by
    show win2_8.index t (1 : Fin 2) * 64 + 1 * (j 1).val = _; omega
  refine blk_fuse_rows _ _ _ _ _ _ _ _ _ _ _ _ _ _ _ _ (blk_edgeFuse_wg V c t) (blk_edgeFuse_bg V c t)
    (blk_edgeFuse_wx V c t) j _ hj1.symm (fun k => ?_) (fun k => ?_) (fun k => ?_) (fun k => ?_) (fun k => ?_)
  · exact blk_edgeFuse_rows0 V c t _ _ hj0 rfl
  · exact blk_edgeFuse_rows1 V c t _ _ hj0 rfl
  · exact blk_edgeFuse_rows2 V c t _ _ hj0 rfl
  · exact blk_edgeFuse_rows3 V c t _ _ hj0 rfl
  · exact blk_edgeFuse_rows4 V c t _ _ hj0 rfl

/-- An index of the result is in point `t`'s block iff each coordinate is in the block's range on its axis. -/
theorem blk_edgeFuse_mem (t : Fin cfg2.N) (i : S800000x64.Idx) :
    i ∈ ((cfg2.win 8).blk t).view.set ↔ ∀ a : Fin 2, win2_8.index t a * S2000x64.size a ≤ (i a).val
      ∧ (i a).val < win2_8.index t a * S2000x64.size a + S2000x64.size a := by
  show i ∈ ((View.whole main_v17).slice (win2_8.rect t)).set ↔ _
  rw [View.set_slice_whole, Rect.mem_set_unit]
  exact Iff.rfl

/-- Row `r` of the result is in the block of point `r / 2000`. -/
theorem blk_edgeFuse_cover (i : S800000x64.Idx) :
    ∃ t : Fin cfg2.N, (cfg2.win 8).flush t = true ∧ i ∈ ((cfg2.win 8).blk t).view.set := by
  have h0 : (i 0).val < 800000 := (i 0).isLt
  have h1 : (i 1).val < 64 := (i 1).isLt
  have hN : cfg2.N = 400 := N_2
  obtain ⟨t, ht⟩ : ∃ t : Fin cfg2.N, t.val = (i 0).val / 2000 := ⟨⟨(i 0).val / 2000, by rw [hN]; omega⟩, rfl⟩
  obtain ⟨e0, e1⟩ := (blk_edgeFuse_index t).2.2.2.2.2.2.2.2
  refine ⟨t, flush2_8 t, ?_⟩
  rw [blk_edgeFuse_mem]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 64 ≤ (i 1).val ∧ (i 1).val < win2_8.index t (1 : Fin 2) * 64 + 64; omega

/-- The edge kernel's result array: `fuse` of the gathered endpoint rows, the geometry, the gathered scale and
    shift rows, `Wg`, the bias row and `Wx` as the region finds them. -/
theorem edgeFuse_array (c : Dev nD) :
    (dat2 (F := Ideal) V c).arrAt 8 cfg2.N
      = fuse (n := 800000) (V c main_v6) (V c main_v7) (V c main_arg2) (V c main_v14) (V c main_v15)
          (V c main_arg7) (V c main_v16) (V c main_arg11) :=
  (dat2 (F := Ideal) V c).arrAt_eq_of_cover 8
    (fuse (n := 800000) (V c main_v6) (V c main_v7) (V c main_arg2) (V c main_v14) (V c main_v15)
      (V c main_arg7) (V c main_v16) (V c main_arg11))
    (fun t _ => blk_edgeFuse_flushed V c t) blk_edgeFuse_cover

end Cert.FilmEdge

end
-- ==== Proof.Take.lean ====
/-
  The kernel's row gathers against the reference's, on indices in range.

  Both programs first wrap a negative index by the table's length `N` (NumPy's convention). The reference then
  gathers; the kernel gathers too and afterwards keeps the gathered row only where the wrapped index lies in
  `[0, N-1]`, writing the NaN word elsewhere. For `-N ≤ a < N` the wrapped index is in `[0, N-1]`, the test holds on
  every edge and the kernel's select returns the gathered rows. The precondition gives exactly these ranges for
  the edge endpoints (`N = 100000`) and the edges' graph ids (`N = 64`).
-/
import proofs.«410433_j62027917688906_1_alg».proof.Defs
import proofs.«410433_j62027917688906_1_alg».proof.Proof.Gen.KernelIdeal
import proofs.«410433_j62027917688906_1_alg».proof.Proof.Gen.Pre_finite_inputs
import Idealize.ShloMosaic.Lib.Pipeline.Value
import Idealize.ShloMosaic.Lib.ValueIdx
import Idealize.ShloMosaic.Lib.ReduceAll
import Idealize.ShloMosaic.Lib.StableHlo.Predicate

noncomputable section

namespace Cert.FilmEdge

open Idealize.ShloMosaic Idealize.ShloMosaic.TcCoe Idealize.ShloMosaic.ValueIdx Idealize.SL.Sem
open Cert.KernelIdeal Cert.KernelIdeal.Facts₀ Cert.KernelIdeal.Facts

/-- NumPy's negative-index convention: an index below zero counts from the end of an axis of length `n`. -/
def wrapIdx (n : BitVec 32) (a : IVec S800000 32) : IVec S800000 32 :=
  select (cmpi .slt a (broadcastInDim S800000 ![] bcast_S_S800000 (constantI S_ 32 0#32)))
    (addi a (broadcastInDim S800000 ![] bcast_S_S800000 (constantI S_ 32 n))) a

/-- The wrapped indices as the one column of start indices a row gather takes. -/
def startCol (n : BitVec 32) (a : IVec S800000 32) : IVec S800000x1 32 :=
  broadcastInDim S800000x1 ![0] bcast_S800000_S800000x1_0 (wrapIdx n a)

/-- Per edge: does the wrapped index lie in `[0, hi]`? -/
def inRange (n hi : BitVec 32) (a : IVec S800000 32) : IVec S800000 1 :=
  Host.reduce IntOp.andi
    (andi (cmpi .sge (startCol n a) (broadcastInDim S800000x1 ![] bcast_S_S800000x1 (constantI S_ 32 0#32)))
      (cmpi .sle (startCol n a) (broadcastInDim S800000x1 ![0, 1] bcast_S1x1_S800000x1_0_1
        (broadcastInDim S1x1 ![1] bcast_S1_S1x1_1 (constantI S1 32 hi)))))
    (constantI S_ 1 1#1) reducesTo_S800000x1_S800000_d1 h_S_

/-- A left fold by `and` from 1 over `i1` words that are all 1 is 1. -/
theorem take_foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact take_foldl_andi_ones f l fun n hn => h n (List.mem_cons_of_mem _ hn)

/-- A signed compare `0 ≤ w` and a signed compare `w ≤ hi` both hold when `w`'s value lies in `[0, hi]`. -/
theorem take_in_range_word (w hi : BitVec 32) (h0 : 0 ≤ w.toInt) (h1 : w.toInt ≤ hi.toInt) :
    IntOp.andi (IntOp.cmpi .sge w 0#32) (IntOp.cmpi .sle w hi) = 1#1 := by
  have hz : (0#32 : BitVec 32).toInt = 0 := by decide
  have ha : IntOp.cmpi .sge w 0#32 = 1#1 := by
    unfold IntOp.cmpi
    simp only [BitVec.sle_eq_decide, hz, h0, decide_true]; rfl
  have hb : IntOp.cmpi .sle w hi = 1#1 := by
    unfold IntOp.cmpi
    simp only [BitVec.sle_eq_decide, h1, decide_true]; rfl
  rw [ha, hb]; rfl

/-- One word: for `-N ≤ x < N` the wrapped word (`x + n` when `x < 0`, else `x`) lies in `[0, N-1]`, signed. -/
theorem take_wrap_word (n hi x : BitVec 32) (N : Int) (hn : n.toInt = N) (hhi : hi.toInt = N - 1) (hN : 0 < N)
    (hN' : N < 2 ^ 30) (hx : -N ≤ x.toInt ∧ x.toInt < N) :
    IntOp.andi (IntOp.cmpi .sge (Scalar.select (IntOp.cmpi .slt x 0#32) (IntOp.addi x n) x) 0#32)
      (IntOp.cmpi .sle (Scalar.select (IntOp.cmpi .slt x 0#32) (IntOp.addi x n) x) hi) = 1#1 := by
  have hz : (0#32 : BitVec 32).toInt = 0 := by decide
  by_cases hneg : x.toInt < 0
  · have hc : IntOp.cmpi .slt x 0#32 = 1#1 := by
      unfold IntOp.cmpi
      simp only [BitVec.slt_eq_decide, hz, hneg, decide_true]; rfl
    have hadd : (IntOp.addi x n).toInt = x.toInt + N := by
      unfold IntOp.addi
      rw [BitVec.toInt_add, hn]
      exact Int.bmod_eq_of_le_mul_two (by omega) (by omega)
    rw [hc, select_one]
    exact take_in_range_word _ _ (by omega) (by omega)
  · have hc : IntOp.cmpi .slt x 0#32 = 0#1 := by
      unfold IntOp.cmpi
      simp only [BitVec.slt_eq_decide, hz, hneg, decide_false]; rfl
    rw [hc, select_zero]
    exact take_in_range_word _ _ (by omega) (by omega)

/-- For `-N ≤ a < N` the wrapped index lies in `[0, N-1]` on every edge. -/
theorem inRange_ones (n hi : BitVec 32) (N : Int) (hn : n.toInt = N) (hhi : hi.toInt = N - 1) (hN : 0 < N)
    (hN' : N < 2 ^ 30) (a : IVec S800000 32) (h : ∀ e, -N ≤ (a e).toInt ∧ (a e).toInt < N) (e : S800000.Idx) :
    inRange n hi a e = 1#1 := by
  unfold inRange
  rw [Host.reduce_eq_foldl]
  refine take_foldl_andi_ones _ _ fun i _ => ?_
  exact take_wrap_word n hi _ N hn hhi hN hN' (h _)

/-- So the kernel's select over that test returns the gathered rows. -/
theorem select_inRange {α : Type} (n hi : BitVec 32) (N : Int) (hn : n.toInt = N) (hhi : hi.toInt = N - 1) (hN : 0 < N)
    (hN' : N < 2 ^ 30) (a : IVec S800000 32) (h : ∀ e, -N ≤ (a e).toInt ∧ (a e).toInt < N) (G X : S800000x64.Idx → α) :
    select (broadcastInDim S800000x64 ![0] bcast_S800000_S800000x64_0 (inRange n hi a)) G X = G := by
  funext j
  rw [select_apply]
  have hm : broadcastInDim S800000x64 ![0] bcast_S800000_S800000x64_0 (inRange n hi a) j = 1#1 := by
    unfold broadcastInDim
    exact inRange_ones n hi N hn hhi hN hN' a h _
  rw [hm, select_one]

/-- Row `r` of the `[2, 800000]` endpoint array as a vector: each entry is an entry of the array. -/
theorem sliceRow0_mem (x1 : IVec S2x800000 32) (e : S800000.Idx) :
    ∃ j, (shapeCast S800000 (extractStridedSlice S1x800000 ![0, 0] x1 slices_S2x800000_S1x800000_0_0)
      shapeCasts_S1x800000_S800000) e = x1 j := ⟨_, rfl⟩
theorem sliceRow1_mem (x1 : IVec S2x800000 32) (e : S800000.Idx) :
    ∃ j, (shapeCast S800000 (extractStridedSlice S1x800000 ![1, 0] x1 slices_S2x800000_S1x800000_1_0)
      shapeCasts_S1x800000_S800000) e = x1 j := ⟨_, rfl⟩

/-- A signed compare `lo ≤ w` and a signed compare `w < hi` that both came out 1 bound `w`'s value. -/
theorem take_word_bounds (w lo hi : BitVec 32) (h : IntOp.andi (IntOp.cmpi .sge w lo) (IntOp.cmpi .slt w hi) = 1#1) :
    lo.toInt ≤ w.toInt ∧ w.toInt < hi.toInt := by
  obtain ⟨h1, h2⟩ := IntOp.andi_eq_one.1 h
  unfold IntOp.cmpi at h1 h2
  rw [StableHlo.Predicate.ofBool_eq_one_iff] at h1 h2
  exact ⟨BitVec.sle_iff_toInt_le.1 h1, BitVec.slt_iff_toInt_lt.1 h2⟩

/-- The precondition's two integer conjuncts, at an element each. -/
theorem take_pre_int (m : (ℓ : Loc nD τ sig) → Buf (Elt Ideal) ℓ) (hpre : Cert.Pre_KernelIdeal m) (c : Dev nD) :
    (∀ j : S2x800000.Idx, IntOp.andi
        (IntOp.cmpi .sge ((m ((c.tc : Thread nD τ).loc main_arg1) : IVec S2x800000 32) j) 4294867296#32)
        (IntOp.cmpi .slt ((m ((c.tc : Thread nD τ).loc main_arg1) : IVec S2x800000 32) j) 100000#32) = 1#1)
    ∧ (∀ e : S800000.Idx, IntOp.andi
        (IntOp.cmpi .sge ((m ((c.tc : Thread nD τ).loc main_arg4) : IVec S800000 32) e) 4294967232#32)
        (IntOp.cmpi .slt ((m ((c.tc : Thread nD τ).loc main_arg4) : IVec S800000 32) e) 64#32) = 1#1) := by
  have h := congrFun (hpre c) ix0
  unfold Cert.Pre_finite_inputs.fn Cert.Pre_finite_inputs.fn_part1 Cert.Pre_finite_inputs.fn_part2
    Cert.Pre_finite_inputs.fn_part3 at h
  dsimp only at h
  obtain ⟨h55, h61⟩ := IntOp.andi_eq_one.1 h
  obtain ⟨-, h54⟩ := IntOp.andi_eq_one.1 h55
  -- the scalar shape has one index
  haveI : Subsingleton Cert.Pre_finite_inputs.S_.Idx := ⟨fun a b => funext fun d => d.elim0⟩
  exact ⟨fun j => Host.reduce_andi_all _ _ _ _ _ h54 j, fun e => Host.reduce_andi_all _ _ _ _ _ h61 e⟩

/-- The precondition's range of the edge endpoints. -/
theorem edge_index_inrange (m : (ℓ : Loc nD τ sig) → Buf (Elt Ideal) ℓ) (hpre : Cert.Pre_KernelIdeal m) (c : Dev nD)
    (j : S2x800000.Idx) :
    -100000 ≤ ((m ((c.tc : Thread nD τ).loc main_arg1) : IVec S2x800000 32) j).toInt
      ∧ ((m ((c.tc : Thread nD τ).loc main_arg1) : IVec S2x800000 32) j).toInt < 100000 := by
  have h := take_word_bounds _ _ _ ((take_pre_int m hpre c).1 j)
  have e1 : (4294867296#32 : BitVec 32).toInt = -100000 := by decide
  have e2 : (100000#32 : BitVec 32).toInt = 100000 := by decide
  rw [e1, e2] at h
  exact h

/-- The precondition's range of the edges' graph ids. -/
theorem batch_ids_inrange (m : (ℓ : Loc nD τ sig) → Buf (Elt Ideal) ℓ) (hpre : Cert.Pre_KernelIdeal m) (c : Dev nD)
    (e : S800000.Idx) :
    -64 ≤ ((m ((c.tc : Thread nD τ).loc main_arg4) : IVec S800000 32) e).toInt
      ∧ ((m ((c.tc : Thread nD τ).loc main_arg4) : IVec S800000 32) e).toInt < 64 := by
  have h := take_word_bounds _ _ _ ((take_pre_int m hpre c).2 e)
  have e1 : (4294967232#32 : BitVec 32).toInt = -64 := by decide
  have e2 : (64#32 : BitVec 32).toInt = 64 := by decide
  rw [e1, e2] at h
  exact h

end Cert.FilmEdge

end
-- ==== Proof.KernelValue.lean ====
/-
  The kernel program's result array as one function of its argument arrays.

  Between its three kernel launches the program runs host operations; the contents of the buffers at each
  boundary are a fold through them. Read buffer by buffer: the bias rows are reshapes of the bias vectors; the first
  launch leaves the projected node features `affine x0 Wn bn`; the two endpoint arrays are row gathers of it at the
  wrapped endpoint indices, with the NaN word where an index is out of range (`takeRows`); the second launch leaves
  the projected conditioning `affine cond Wc bc`, whose left half plus one and right half are gathered at the wrapped
  graph ids; the third launch leaves `fuse` of these. No host operation and no launch writes an argument array.
-/
import proofs.«410433_j62027917688906_1_alg».proof.Proof.Gen.KernelIdeal.Frame
import proofs.«410433_j62027917688906_1_alg».proof.Proof.Blocks
import proofs.«410433_j62027917688906_1_alg».proof.Proof.Take
import proofs.«410433_j62027917688906_1_alg».proof.Proof.KernelRun
import Idealize.ShloMosaic.Lib.StableHlo.Run
import Idealize.ShloMosaic.Lib.Pipeline.Value

set_option maxRecDepth 16384

noncomputable section

namespace Cert.FilmEdge

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- A buffer no operation of a stretch writes holds after the stretch what it held before. -/
macro "not_written" : tactic => `(tactic| exact StableHlo.after_of_forall_not_mem _ _ (List.forall_iff_forall_mem.mp (by
  simp only [hostOps0, hostOps1, hostOps1_1, hostOps1_2, hostOps1_3, hostOps2, hostOps2_1, hostOps2_2, hostOps2_3,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- Carrying contents to a buffer's own type and back is the identity. -/
theorem tref_ofBuf_toBuf {T : BufTy} (x : StableHlo.TRef sig T) (v : T.Contents (Elt Ideal)) :
    x.ofBuf (x.toBuf v) = v := by
  obtain ⟨r, h, h2, h3⟩ := x
  subst h
  rfl

/-- What a buffer holds after stretches of host operations, as the operations' functions of what the buffers they
    read held before. -/
macro "read_stretch" : tactic => `(tactic| (after_results_simp; try simp only [tref_ofBuf_toBuf]))

/-- Row `0` resp. `1` of the `[2, 800000]` endpoint array, as a vector over the edges. -/
def rowOf0 (x1 : IVec S2x800000 32) : IVec S800000 32 :=
  shapeCast S800000 (extractStridedSlice S1x800000 ![0, 0] x1 slices_S2x800000_S1x800000_0_0) shapeCasts_S1x800000_S800000
@[inherit_doc rowOf0]
def rowOf1 (x1 : IVec S2x800000 32) : IVec S800000 32 :=
  shapeCast S800000 (extractStridedSlice S1x800000 ![1, 0] x1 slices_S2x800000_S1x800000_1_0) shapeCasts_S1x800000_S800000

/-- The kernel's row gather: rows of `A` at the wrapped indices, the NaN word where the wrapped index is outside
    `[0, hi]`. -/
def takeRows {s : Shape} (d : GatherDims s S800000x1 S800000x64) (n hi : BitVec 32) (A : s.Idx → EReal)
    (a : IVec S800000 32) : FVec Ideal S800000x64 .f32 :=
  select (broadcastInDim S800000x64 ![0] bcast_S800000_S800000x64_0 (inRange n hi a)) (Host.gather d A (startCol n a))
    (broadcastInDim S800000x64 ![] bcast_S_S800000x64 (constant (F := Ideal) S_ .f32 0x7FC00000#32))

/-! ## Up to the first launch's exit -/

theorem w1_arg0 (c : Dev nD) : W1 (F := Ideal) m ρ c (Proc.devRef .tc main_arg0) = (m ((c.tc : Thread nD τ).loc main_arg0)) := by
  show StableHlo.after hostOps0 (W0 m ρ c) (Proc.devRef .tc main_arg0) = _
  after_results
theorem w1_arg5 (c : Dev nD) : W1 (F := Ideal) m ρ c (Proc.devRef .tc main_arg5) = (m ((c.tc : Thread nD τ).loc main_arg5)) := by
  show StableHlo.after hostOps0 (W0 m ρ c) (Proc.devRef .tc main_arg5) = _
  after_results
/-- The node bias as the one row the first kernel reads. -/
theorem w1_v0 (c : Dev nD) : W1 (F := Ideal) m ρ c (Proc.devRef .tc main_v0) = shapeCast S1x64 (m ((c.tc : Thread nD τ).loc main_arg6)) shapeCasts_S64_S1x64 := by
  show StableHlo.after hostOps0 (W0 m ρ c) (Proc.devRef .tc main_v0) = _
  after_results
  rfl

/-- The projected node features. -/
theorem w2_v1 (c : Dev nD) :
    W2 (F := Ideal) m ρ c (Proc.devRef .tc main_v1)
      = affine (n := 100000) (k := 64) (m := 64) (m ((c.tc : Thread nD τ).loc main_arg0)) (m ((c.tc : Thread nD τ).loc main_arg5))
          (shapeCast S1x64 (m ((c.tc : Thread nD τ).loc main_arg6)) shapeCasts_S64_S1x64) := by
  refine (W2_arr m ρ c 3).trans ?_
  rw [nodeProj_array (V1 m ρ) c]
  show affine (W1 (F := Ideal) m ρ c (Proc.devRef .tc main_arg0)) (W1 (F := Ideal) m ρ c (Proc.devRef .tc main_arg5)) (W1 (F := Ideal) m ρ c (Proc.devRef .tc main_v0)) = _
  rw [w1_arg0 m ρ c, w1_arg5 m ρ c, w1_v0 m ρ c]

theorem w2_arg1 (c : Dev nD) : W2 (F := Ideal) m ρ c (Proc.devRef .tc main_arg1) = (m ((c.tc : Thread nD τ).loc main_arg1)) := by
  refine (W2_of_ne m ρ c main_arg1 (by decide)).trans ?_
  show StableHlo.after hostOps0 (W0 m ρ c) (Proc.devRef .tc main_arg1) = _
  after_results
theorem w2_arg2 (c : Dev nD) : W2 (F := Ideal) m ρ c (Proc.devRef .tc main_arg2) = (m ((c.tc : Thread nD τ).loc main_arg2)) := by
  refine (W2_of_ne m ρ c main_arg2 (by decide)).trans ?_
  show StableHlo.after hostOps0 (W0 m ρ c) (Proc.devRef .tc main_arg2) = _
  after_results
theorem w2_arg3 (c : Dev nD) : W2 (F := Ideal) m ρ c (Proc.devRef .tc main_arg3) = (m ((c.tc : Thread nD τ).loc main_arg3)) := by
  refine (W2_of_ne m ρ c main_arg3 (by decide)).trans ?_
  show StableHlo.after hostOps0 (W0 m ρ c) (Proc.devRef .tc main_arg3) = _
  after_results
theorem w2_arg4 (c : Dev nD) : W2 (F := Ideal) m ρ c (Proc.devRef .tc main_arg4) = (m ((c.tc : Thread nD τ).loc main_arg4)) := by
  refine (W2_of_ne m ρ c main_arg4 (by decide)).trans ?_
  show StableHlo.after hostOps0 (W0 m ρ c) (Proc.devRef .tc main_arg4) = _
  after_results
theorem w2_arg7 (c : Dev nD) : W2 (F := Ideal) m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results
theorem w2_arg8 (c : Dev nD) : W2 (F := Ideal) m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results
theorem w2_arg9 (c : Dev nD) : W2 (F := Ideal) m ρ c (Proc.devRef .tc main_arg9) = (m ((c.tc : Thread nD τ).loc main_arg9)) := by
  refine (W2_of_ne m ρ c main_arg9 (by decide)).trans ?_
  show StableHlo.after hostOps0 (W0 m ρ c) (Proc.devRef .tc main_arg9) = _
  after_results
theorem w2_arg10 (c : Dev nD) : W2 (F := Ideal) m ρ c (Proc.devRef .tc main_arg10) = (m ((c.tc : Thread nD τ).loc main_arg10)) := by
  refine (W2_of_ne m ρ c main_arg10 (by decide)).trans ?_
  show StableHlo.after hostOps0 (W0 m ρ c) (Proc.devRef .tc main_arg10) = _
  after_results
theorem w2_arg11 (c : Dev nD) : W2 (F := Ideal) m ρ c (Proc.devRef .tc main_arg11) = (m ((c.tc : Thread nD τ).loc main_arg11)) := by
  refine (W2_of_ne m ρ c main_arg11 (by decide)).trans ?_
  show StableHlo.after hostOps0 (W0 m ρ c) (Proc.devRef .tc main_arg11) = _
  after_results

/-! ## The two endpoint gathers, and up to the second launch's exit -/

set_option maxHeartbeats 4000000 in
/-- The source endpoints' rows. -/
theorem w4_v6 (c : Dev nD) :
    W4 (F := Ideal) m ρ c (Proc.devRef .tc main_v6) = takeRows gather_S100000x64_S800000x1_S800000x64_1_0_n_n_0_1_164 100000#32 99999#32 (W2 (F := Ideal) m ρ c (Proc.devRef .tc main_v1)) (rowOf0 (W2 (F := Ideal) m ρ c (Proc.devRef .tc main_arg1))) := by
  show StableHlo.after hostOps1_1 (StableHlo.after hostOps1 (W2 m ρ c)) (Proc.devRef .tc main_v6) = _
  read_stretch
  unfold takeRows inRange
  show (TRef.of main_v6 _ _ _).toBuf (select _ _ _) = select _ _ _
  congr 1

set_option maxHeartbeats 4000000 in
/-- The destination endpoints' rows. -/
theorem w5_v7 (c : Dev nD) :
    W5 (F := Ideal) m ρ c (Proc.devRef .tc main_v7) = takeRows gather_S100000x64_S800000x1_S800000x64_1_0_n_n_0_1_164 100000#32 99999#32 (W2 (F := Ideal) m ρ c (Proc.devRef .tc main_v1)) (rowOf1 (W2 (F := Ideal) m ρ c (Proc.devRef .tc main_arg1))) := by
  show StableHlo.after hostOps1_2 (StableHlo.after hostOps1_1 (StableHlo.after hostOps1 (W2 m ρ c))) (Proc.devRef .tc main_v7) = _
  read_stretch
  unfold takeRows inRange
  show (TRef.of main_v7 _ _ _).toBuf (select _ _ _) = select _ _ _
  congr 1

theorem w6_v6 (c : Dev nD) : W6 (F := Ideal) m ρ c (Proc.devRef .tc main_v6) = W4 (F := Ideal) m ρ c (Proc.devRef .tc main_v6) :=
  calc W6 (F := Ideal) m ρ c (Proc.devRef .tc main_v6)
    _ = W5 (F := Ideal) m ρ c (Proc.devRef .tc main_v6) := by not_written
    _ = W4 (F := Ideal) m ρ c (Proc.devRef .tc main_v6) := by not_written
theorem w6_v7 (c : Dev nD) : W6 (F := Ideal) m ρ c (Proc.devRef .tc main_v7) = W5 (F := Ideal) m ρ c (Proc.devRef .tc main_v7) := by not_written

set_option maxHeartbeats 4000000 in
/-- The conditioning bias as the one row the second kernel reads. -/
theorem w6_v8 (c : Dev nD) : W6 (F := Ideal) m ρ c (Proc.devRef .tc main_v8) = shapeCast S1x128 (m ((c.tc : Thread nD τ).loc main_arg10)) shapeCasts_S128_S1x128 := by
  show StableHlo.after hostOps1_3 (StableHlo.after hostOps1_2 (StableHlo.after hostOps1_1 (StableHlo.after hostOps1 (W2 m ρ c)))) (Proc.devRef .tc main_v8) = _
  read_stretch
  rw [w2_arg10 m ρ c]
  rfl
set_option maxHeartbeats 4000000 in
theorem w6_arg2 (c : Dev nD) : W6 (F := Ideal) m ρ c (Proc.devRef .tc main_arg2) = (m ((c.tc : Thread nD τ).loc main_arg2)) := by
  show StableHlo.after hostOps1_3 (StableHlo.after hostOps1_2 (StableHlo.after hostOps1_1 (StableHlo.after hostOps1 (W2 m ρ c)))) (Proc.devRef .tc main_arg2) = _
  read_stretch
  exact w2_arg2 m ρ c
set_option maxHeartbeats 4000000 in
theorem w6_arg3 (c : Dev nD) : W6 (F := Ideal) m ρ c (Proc.devRef .tc main_arg3) = (m ((c.tc : Thread nD τ).loc main_arg3)) := by
  show StableHlo.after hostOps1_3 (StableHlo.after hostOps1_2 (StableHlo.after hostOps1_1 (StableHlo.after hostOps1 (W2 m ρ c)))) (Proc.devRef .tc main_arg3) = _
  read_stretch
  exact w2_arg3 m ρ c
set_option maxHeartbeats 4000000 in
theorem w6_arg4 (c : Dev nD) : W6 (F := Ideal) m ρ c (Proc.devRef .tc main_arg4) = (m ((c.tc : Thread nD τ).loc main_arg4)) := by
  show StableHlo.after hostOps1_3 (StableHlo.after hostOps1_2 (StableHlo.after hostOps1_1 (StableHlo.after hostOps1 (W2 m ρ c)))) (Proc.devRef .tc main_arg4) = _
  read_stretch
  exact w2_arg4 m ρ c
set_option maxHeartbeats 4000000 in
theorem w6_arg7 (c : Dev nD) : W6 (F := Ideal) m ρ c (Proc.devRef .tc main_arg7) = (m ((c.tc : Thread nD τ).loc main_arg7)) := by
  show StableHlo.after hostOps1_3 (StableHlo.after hostOps1_2 (StableHlo.after hostOps1_1 (StableHlo.after hostOps1 (W2 m ρ c)))) (Proc.devRef .tc main_arg7) = _
  read_stretch
  exact w2_arg7 m ρ c
set_option maxHeartbeats 4000000 in
theorem w6_arg8 (c : Dev nD) : W6 (F := Ideal) m ρ c (Proc.devRef .tc main_arg8) = (m ((c.tc : Thread nD τ).loc main_arg8)) := by
  show StableHlo.after hostOps1_3 (StableHlo.after hostOps1_2 (StableHlo.after hostOps1_1 (StableHlo.after hostOps1 (W2 m ρ c)))) (Proc.devRef .tc main_arg8) = _
  read_stretch
  exact w2_arg8 m ρ c
set_option maxHeartbeats 4000000 in
theorem w6_arg9 (c : Dev nD) : W6 (F := Ideal) m ρ c (Proc.devRef .tc main_arg9) = (m ((c.tc : Thread nD τ).loc main_arg9)) := by
  show StableHlo.after hostOps1_3 (StableHlo.after hostOps1_2 (StableHlo.after hostOps1_1 (StableHlo.after hostOps1 (W2 m ρ c)))) (Proc.devRef .tc main_arg9) = _
  read_stretch
  exact w2_arg9 m ρ c
set_option maxHeartbeats 4000000 in
theorem w6_arg11 (c : Dev nD) : W6 (F := Ideal) m ρ c (Proc.devRef .tc main_arg11) = (m ((c.tc : Thread nD τ).loc main_arg11)) := by
  show StableHlo.after hostOps1_3 (StableHlo.after hostOps1_2 (StableHlo.after hostOps1_1 (StableHlo.after hostOps1 (W2 m ρ c)))) (Proc.devRef .tc main_arg11) = _
  read_stretch
  exact w2_arg11 m ρ c

/-- The projected conditioning, scale and shift halves side by side. -/
theorem w7_v9 (c : Dev nD) :
    W7 (F := Ideal) m ρ c (Proc.devRef .tc main_v9)
      = affine (n := 64) (k := 512) (m := 128) (m ((c.tc : Thread nD τ).loc main_arg3)) (m ((c.tc : Thread nD τ).loc main_arg9))
          (shapeCast S1x128 (m ((c.tc : Thread nD τ).loc main_arg10)) shapeCasts_S128_S1x128) := by
  refine (W7_arr m ρ c 3).trans ?_
  rw [condProj_array (V6 m ρ) c]
  show affine (W6 (F := Ideal) m ρ c (Proc.devRef .tc main_arg3)) (W6 (F := Ideal) m ρ c (Proc.devRef .tc main_arg9)) (W6 (F := Ideal) m ρ c (Proc.devRef .tc main_v8)) = _
  rw [w6_arg3 m ρ c, w6_arg9 m ρ c, w6_v8 m ρ c]

theorem w7_arg2 (c : Dev nD) : W7 (F := Ideal) m ρ c (Proc.devRef .tc main_arg2) = (m ((c.tc : Thread nD τ).loc main_arg2)) :=
  (W7_of_ne m ρ c main_arg2 (by decide)).trans (w6_arg2 m ρ c)
theorem w7_arg4 (c : Dev nD) : W7 (F := Ideal) m ρ c (Proc.devRef .tc main_arg4) = (m ((c.tc : Thread nD τ).loc main_arg4)) :=
  (W7_of_ne m ρ c main_arg4 (by decide)).trans (w6_arg4 m ρ c)
theorem w7_arg7 (c : Dev nD) : W7 (F := Ideal) m ρ c (Proc.devRef .tc main_arg7) = (m ((c.tc : Thread nD τ).loc main_arg7)) :=
  (W7_of_ne m ρ c main_arg7 (by decide)).trans (w6_arg7 m ρ c)
theorem w7_arg8 (c : Dev nD) : W7 (F := Ideal) m ρ c (Proc.devRef .tc main_arg8) = (m ((c.tc : Thread nD τ).loc main_arg8)) :=
  (W7_of_ne m ρ c main_arg8 (by decide)).trans (w6_arg8 m ρ c)
theorem w7_arg11 (c : Dev nD) : W7 (F := Ideal) m ρ c (Proc.devRef .tc main_arg11) = (m ((c.tc : Thread nD τ).loc main_arg11)) :=
  (W7_of_ne m ρ c main_arg11 (by decide)).trans (w6_arg11 m ρ c)
theorem w7_v6 (c : Dev nD) : W7 (F := Ideal) m ρ c (Proc.devRef .tc main_v6) = W6 (F := Ideal) m ρ c (Proc.devRef .tc main_v6) := W7_of_ne m ρ c main_v6 (by decide)
theorem w7_v7 (c : Dev nD) : W7 (F := Ideal) m ρ c (Proc.devRef .tc main_v7) = W6 (F := Ideal) m ρ c (Proc.devRef .tc main_v7) := W7_of_ne m ρ c main_v7 (by decide)

/-! ## The scale and shift gathers, and up to the third launch's entry -/

set_option maxHeartbeats 4000000 in
/-- The edges' scale rows: the left half of the projected conditioning plus one, gathered at the graph ids. -/
theorem w9_v14 (c : Dev nD) :
    W9 (F := Ideal) m ρ c (Proc.devRef .tc main_v14)
      = takeRows gather_S64x64_S800000x1_S800000x64_1_0_n_n_0_1_164 64#32 63#32
          (addf (extractStridedSlice S64x64 ![0, 0] (W7 (F := Ideal) m ρ c (Proc.devRef .tc main_v9)) slices_S64x128_S64x64_0_0)
            (broadcastInDim S64x64 ![] bcast_S_S64x64 (constant (F := Ideal) S_ .f32 0x3F800000#32)))
          (W7 (F := Ideal) m ρ c (Proc.devRef .tc main_arg4)) := by
  show StableHlo.after hostOps2_1 (StableHlo.after hostOps2 (W7 m ρ c)) (Proc.devRef .tc main_v14) = _
  read_stretch
  unfold takeRows inRange
  show (TRef.of main_v14 _ _ _).toBuf (select _ _ _) = select _ _ _
  congr 1

set_option maxHeartbeats 4000000 in
/-- The edges' shift rows: the right half of the projected conditioning, gathered at the graph ids. -/
theorem w10_v15 (c : Dev nD) :
    W10 (F := Ideal) m ρ c (Proc.devRef .tc main_v15)
      = takeRows gather_S64x64_S800000x1_S800000x64_1_0_n_n_0_1_164 64#32 63#32
          (extractStridedSlice S64x64 ![0, 64] (W7 (F := Ideal) m ρ c (Proc.devRef .tc main_v9)) slices_S64x128_S64x64_0_64)
          (W7 (F := Ideal) m ρ c (Proc.devRef .tc main_arg4)) := by
  show StableHlo.after hostOps2_2 (StableHlo.after hostOps2_1 (StableHlo.after hostOps2 (W7 m ρ c))) (Proc.devRef .tc main_v15) = _
  read_stretch
  unfold takeRows inRange
  show (TRef.of main_v15 _ _ _).toBuf (select _ _ _) = select _ _ _
  congr 1

theorem w11_v14 (c : Dev nD) : W11 (F := Ideal) m ρ c (Proc.devRef .tc main_v14) = W9 (F := Ideal) m ρ c (Proc.devRef .tc main_v14) :=
  calc W11 (F := Ideal) m ρ c (Proc.devRef .tc main_v14)
    _ = W10 (F := Ideal) m ρ c (Proc.devRef .tc main_v14) := by not_written
    _ = W9 (F := Ideal) m ρ c (Proc.devRef .tc main_v14) := by not_written
theorem w11_v15 (c : Dev nD) : W11 (F := Ideal) m ρ c (Proc.devRef .tc main_v15) = W10 (F := Ideal) m ρ c (Proc.devRef .tc main_v15) := by not_written

set_option maxHeartbeats 4000000 in
/-- The geometry bias as the one row the third kernel reads. -/
theorem w11_v16 (c : Dev nD) : W11 (F := Ideal) m ρ c (Proc.devRef .tc main_v16) = shapeCast S1x32 (m ((c.tc : Thread nD τ).loc main_arg8)) shapeCasts_S32_S1x32 := by
  show StableHlo.after hostOps2_3 (StableHlo.after hostOps2_2 (StableHlo.after hostOps2_1 (StableHlo.after hostOps2 (W7 m ρ c)))) (Proc.devRef .tc main_v16) = _
  read_stretch
  rw [w7_arg8 m ρ c]
  rfl
theorem w11_v6 (c : Dev nD) : W11 (F := Ideal) m ρ c (Proc.devRef .tc main_v6) = W7 (F := Ideal) m ρ c (Proc.devRef .tc main_v6) :=
  calc W11 (F := Ideal) m ρ c (Proc.devRef .tc main_v6)
    _ = W10 (F := Ideal) m ρ c (Proc.devRef .tc main_v6) := by not_written
    _ = W9 (F := Ideal) m ρ c (Proc.devRef .tc main_v6) := by not_written
    _ = W8 (F := Ideal) m ρ c (Proc.devRef .tc main_v6) := by not_written
    _ = W7 (F := Ideal) m ρ c (Proc.devRef .tc main_v6) := by not_written
theorem w11_v7 (c : Dev nD) : W11 (F := Ideal) m ρ c (Proc.devRef .tc main_v7) = W7 (F := Ideal) m ρ c (Proc.devRef .tc main_v7) :=
  calc W11 (F := Ideal) m ρ c (Proc.devRef .tc main_v7)
    _ = W10 (F := Ideal) m ρ c (Proc.devRef .tc main_v7) := by not_written
    _ = W9 (F := Ideal) m ρ c (Proc.devRef .tc main_v7) := by not_written
    _ = W8 (F := Ideal) m ρ c (Proc.devRef .tc main_v7) := by not_written
    _ = W7 (F := Ideal) m ρ c (Proc.devRef .tc main_v7) := by not_written
theorem w11_arg2 (c : Dev nD) : W11 (F := Ideal) m ρ c (Proc.devRef .tc main_arg2) = W7 (F := Ideal) m ρ c (Proc.devRef .tc main_arg2) :=
  calc W11 (F := Ideal) m ρ c (Proc.devRef .tc main_arg2)
    _ = W10 (F := Ideal) m ρ c (Proc.devRef .tc main_arg2) := by not_written
    _ = W9 (F := Ideal) m ρ c (Proc.devRef .tc main_arg2) := by not_written
    _ = W8 (F := Ideal) m ρ c (Proc.devRef .tc main_arg2) := by not_written
    _ = W7 (F := Ideal) m ρ c (Proc.devRef .tc main_arg2) := by not_written
theorem w11_arg7 (c : Dev nD) : W11 (F := Ideal) m ρ c (Proc.devRef .tc main_arg7) = W7 (F := Ideal) m ρ c (Proc.devRef .tc main_arg7) :=
  calc W11 (F := Ideal) m ρ c (Proc.devRef .tc main_arg7)
    _ = W10 (F := Ideal) m ρ c (Proc.devRef .tc main_arg7) := by not_written
    _ = W9 (F := Ideal) m ρ c (Proc.devRef .tc main_arg7) := by not_written
    _ = W8 (F := Ideal) m ρ c (Proc.devRef .tc main_arg7) := by not_written
    _ = W7 (F := Ideal) m ρ c (Proc.devRef .tc main_arg7) := by not_written
theorem w11_arg11 (c : Dev nD) : W11 (F := Ideal) m ρ c (Proc.devRef .tc main_arg11) = W7 (F := Ideal) m ρ c (Proc.devRef .tc main_arg11) :=
  calc W11 (F := Ideal) m ρ c (Proc.devRef .tc main_arg11)
    _ = W10 (F := Ideal) m ρ c (Proc.devRef .tc main_arg11) := by not_written
    _ = W9 (F := Ideal) m ρ c (Proc.devRef .tc main_arg11) := by not_written
    _ = W8 (F := Ideal) m ρ c (Proc.devRef .tc main_arg11) := by not_written
    _ = W7 (F := Ideal) m ρ c (Proc.devRef .tc main_arg11) := by not_written

/-! ## The result -/

/-- The kernel program's result as one function of its twelve argument arrays. -/
def kernelValue (x0 : FVec Ideal S100000x64 .f32) (x1 : IVec S2x800000 32) (x2 : FVec Ideal S800000x8 .f32)
    (x3 : FVec Ideal S64x512 .f32) (x4 : IVec S800000 32) (x5 : FVec Ideal S64x64 .f32) (x6 : FVec Ideal S64 .f32)
    (x7 : FVec Ideal S8x32 .f32) (x8 : FVec Ideal S32 .f32) (x9 : FVec Ideal S512x128 .f32) (x10 : FVec Ideal S128 .f32)
    (x11 : FVec Ideal S96x64 .f32) : FVec Ideal S800000x64 .f32 :=
  fuse (n := 800000)
    (takeRows gather_S100000x64_S800000x1_S800000x64_1_0_n_n_0_1_164 100000#32 99999#32
      (affine (n := 100000) (k := 64) (m := 64) x0 x5 (shapeCast S1x64 x6 shapeCasts_S64_S1x64)) (rowOf0 x1))
    (takeRows gather_S100000x64_S800000x1_S800000x64_1_0_n_n_0_1_164 100000#32 99999#32
      (affine (n := 100000) (k := 64) (m := 64) x0 x5 (shapeCast S1x64 x6 shapeCasts_S64_S1x64)) (rowOf1 x1))
    x2
    (takeRows gather_S64x64_S800000x1_S800000x64_1_0_n_n_0_1_164 64#32 63#32
      (addf (extractStridedSlice S64x64 ![0, 0]
          (affine (n := 64) (k := 512) (m := 128) x3 x9 (shapeCast S1x128 x10 shapeCasts_S128_S1x128)) slices_S64x128_S64x64_0_0)
        (broadcastInDim S64x64 ![] bcast_S_S64x64 (constant (F := Ideal) S_ .f32 0x3F800000#32))) x4)
    (takeRows gather_S64x64_S800000x1_S800000x64_1_0_n_n_0_1_164 64#32 63#32
      (extractStridedSlice S64x64 ![0, 64]
        (affine (n := 64) (k := 512) (m := 128) x3 x9 (shapeCast S1x128 x10 shapeCasts_S128_S1x128)) slices_S64x128_S64x64_0_64) x4)
    x7 (shapeCast S1x32 x8 shapeCasts_S32_S1x32) x11

/-- The result array at the last boundary is `kernelValue` of the launch contents of the arguments. -/
theorem result_value (c : Dev nD) :
    W12 (F := Ideal) m ρ c (Proc.devRef .tc main_v17)
      = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W12_arr m ρ c 8).trans ?_
  rw [edgeFuse_array (V11 m ρ) c]
  show fuse (W11 (F := Ideal) m ρ c (Proc.devRef .tc main_v6)) (W11 (F := Ideal) m ρ c (Proc.devRef .tc main_v7)) (W11 (F := Ideal) m ρ c (Proc.devRef .tc main_arg2)) (W11 (F := Ideal) m ρ c (Proc.devRef .tc main_v14)) (W11 (F := Ideal) m ρ c (Proc.devRef .tc main_v15)) (W11 (F := Ideal) m ρ c (Proc.devRef .tc main_arg7)) (W11 (F := Ideal) m ρ c (Proc.devRef .tc main_v16)) (W11 (F := Ideal) m ρ c (Proc.devRef .tc main_arg11)) = _
  rw [w11_v6 m ρ c, w7_v6 m ρ c, w6_v6 m ρ c, w4_v6 m ρ c, w11_v7 m ρ c, w7_v7 m ρ c, w6_v7 m ρ c, w5_v7 m ρ c,
    w11_arg2 m ρ c, w7_arg2 m ρ c, w11_v14 m ρ c, w9_v14 m ρ c, w11_v15 m ρ c, w10_v15 m ρ c,
    w11_arg7 m ρ c, w7_arg7 m ρ c, w11_v16 m ρ c, w11_arg11 m ρ c, w7_arg11 m ρ c,
    w2_v1 m ρ c, w2_arg1 m ρ c, w7_v9 m ρ c, w7_arg4 m ρ c]
  rfl

/-- The kernel program's run, read: every weakly fair execution terminates, nothing faulting, with the result array
    at `kernelValue` of the arguments and the arguments unchanged. -/
theorem kernel_run : θ_run defs (onTc (τ := τ) (main (F := Ideal))) ⟨m, fun _ => 0, ρ⟩ (fun r => ∀ c : Dev nD,
      r.2.mem ((c.tc : Thread nD τ).loc main_v17)
        = kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_value m ρ c), (h c).2⟩) (run_result (F := Ideal) m ρ)

end Cert.FilmEdge

end
-- ==== Proof.RefStages.lean ====
/-
  The reference's stages as the row-wise functions of `Spec.lean` at the full extents: its node projection and
  its conditioning projection are `affine` (a `dot_general` over the one contracted axis is the plain sum, the
  bias broadcast along the rows), and everything after its four row gathers is `fuse` of the gathered arrays.
-/
import proofs.«410433_j62027917688906_1_alg».proof.Proof.Gen.ReferenceIdeal.Read
import proofs.«410433_j62027917688906_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.FilmEdge

open Idealize.ShloMosaic Idealize.ShloMosaic.ValueIdx
open Cert.ReferenceIdeal Cert.ReferenceIdeal.Gen Cert.ReferenceIdeal.Read

/-! ## The three projections: a one-axis contraction is the plain sum, the bias is read at the column -/

/-- The reference's projected node features. -/
theorem ref_nodeProj (x0 : FVec Ideal S100000x64 .f32) (x5 : FVec Ideal S64x64 .f32) (x6 : FVec Ideal S64 .f32) :
    val_main_v3 (F := Ideal) x0 x5 x6 = affine (n := 100000) (k := 64) (m := 64) x0 x5 (asRow x6) := by
  funext i
  -- the contraction reads row `i 0` of the left operand and column `i 1` of the right one
  have el : ∀ k : Fin 64, lidx_main_v0 i k = ix2 (row i) k := fun k =>
    funext fun a => Fin.ext (by match a with | ⟨0, _⟩ => rfl | ⟨1, _⟩ => rfl)
  have er : ∀ k : Fin 64, ridx_main_v0 i k = ix2 k (col i) := fun k =>
    funext fun a => Fin.ext (by match a with | ⟨0, _⟩ => rfl | ⟨1, _⟩ => rfl)
  -- the two broadcasts together read the bias at the column
  have eb : idx_main_v1 (idx_main_v2 i) = ix1 (col i) :=
    funext fun a => Fin.ext (by match a with | ⟨0, _⟩ => rfl)
  rw [val_main_v3_apply, val_main_v0_apply, val_main_v2_apply, val_main_v1_apply, eb]
  simp only [el, er]
  rfl

/-- The reference's projected edge geometry. -/
theorem ref_geoProj (x2 : FVec Ideal S800000x8 .f32) (x7 : FVec Ideal S8x32 .f32) (x8 : FVec Ideal S32 .f32) :
    val_main_v26 (F := Ideal) x2 x7 x8 = affine (n := 800000) (k := 8) (m := 32) x2 x7 (asRow x8) := by
  funext i
  have el : ∀ k : Fin 8, lidx_main_v23 i k = ix2 (row i) k := fun k =>
    funext fun a => Fin.ext (by match a with | ⟨0, _⟩ => rfl | ⟨1, _⟩ => rfl)
  have er : ∀ k : Fin 8, ridx_main_v23 i k = ix2 k (col i) := fun k =>
    funext fun a => Fin.ext (by match a with | ⟨0, _⟩ => rfl | ⟨1, _⟩ => rfl)
  have eb : idx_main_v24 (idx_main_v25 i) = ix1 (col i) :=
    funext fun a => Fin.ext (by match a with | ⟨0, _⟩ => rfl)
  rw [val_main_v26_apply, val_main_v23_apply, val_main_v25_apply, val_main_v24_apply, eb]
  simp only [el, er]
  rfl

/-- The reference's projected conditioning, scale and shift halves side by side. -/
theorem ref_condProj (x3 : FVec Ideal S64x512 .f32) (x9 : FVec Ideal S512x128 .f32) (x10 : FVec Ideal S128 .f32) :
    val_main_v31 (F := Ideal) x3 x9 x10 = affine (n := 64) (k := 512) (m := 128) x3 x9 (asRow x10) := by
  funext i
  have el : ∀ k : Fin 512, lidx_main_v28 i k = ix2 (row i) k := fun k =>
    funext fun a => Fin.ext (by match a with | ⟨0, _⟩ => rfl | ⟨1, _⟩ => rfl)
  have er : ∀ k : Fin 512, ridx_main_v28 i k = ix2 k (col i) := fun k =>
    funext fun a => Fin.ext (by match a with | ⟨0, _⟩ => rfl | ⟨1, _⟩ => rfl)
  have eb : idx_main_v29 (idx_main_v30 i) = ix1 (col i) :=
    funext fun a => Fin.ext (by match a with | ⟨0, _⟩ => rfl)
  rw [val_main_v31_apply, val_main_v28_apply, val_main_v30_apply, val_main_v29_apply, eb]
  simp only [el, er]
  rfl

/-- The reference after its gathers, over ANY gathered arrays: endpoint product, projected geometry, the two
    joined, against `Wx`, scaled, shifted, clipped below at zero. -/
def refFuse (src dst : FVec Ideal S800000x64 .f32) (x2 : FVec Ideal S800000x8 .f32) (x7 : FVec Ideal S8x32 .f32)
    (x8 : FVec Ideal S32 .f32) (gam bet : FVec Ideal S800000x64 .f32) (x11 : FVec Ideal S96x64 .f32) :
    FVec Ideal S800000x64 .f32 :=
  maximumf (addf (mulf (Host.dotGeneral dot_S800000x96_S96x64_S800000x64_1_0_0_1_n_n none
      (concatenate S800000x96 1 [⟨S800000x64, mulf src dst⟩, ⟨S800000x32, val_main_v26 (F := Ideal) x2 x7 x8⟩]
        concatenates_S800000x64_S800000x32_S800000x96_d1) x11) gam) bet) (val_main_call0_v0 (F := Ideal))

/-- The reference's result is `refFuse` of its four gathered arrays. -/
theorem ref_result_split (x0 : FVec Ideal S100000x64 .f32) (x1 : IVec S2x800000 32) (x2 : FVec Ideal S800000x8 .f32)
    (x3 : FVec Ideal S64x512 .f32) (x4 : IVec S800000 32) (x5 : FVec Ideal S64x64 .f32) (x6 : FVec Ideal S64 .f32)
    (x7 : FVec Ideal S8x32 .f32) (x8 : FVec Ideal S32 .f32) (x9 : FVec Ideal S512x128 .f32) (x10 : FVec Ideal S128 .f32)
    (x11 : FVec Ideal S96x64 .f32) :
    val_main_v53 (F := Ideal) x0 x1 x2 x3 x4 x5 x6 x7 x8 x9 x10 x11
      = refFuse (val_main_v12 (F := Ideal) x0 x1 x5 x6) (val_main_v21 (F := Ideal) x0 x1 x5 x6) x2 x7 x8
          (val_main_v42 (F := Ideal) x3 x4 x9 x10) (val_main_v49 (F := Ideal) x3 x4 x9 x10) x11 := by
  unfold val_main_v53 val_main_v52 val_main_v51 val_main_v50 val_main_v27 val_main_v22 refFuse
  rfl

/-! ## The joined array, one column at a time -/

/-- A column left of 64 of the joined features is the endpoint product. -/
theorem joined_left {n : Nat} (src dst : Arr n 64) (geo : Arr n 8) (wg : Arr 8 32) (bg : Arr 1 32) (r : Fin n) (q : Fin 96)
    (hq : q.val < 64) :
    joined src dst geo wg bg (ix2 r q) = src (ix2 r ⟨q.val, hq⟩) * dst (ix2 r ⟨q.val, hq⟩) := dif_pos hq

/-- A column from 64 on is the projected geometry, 64 columns back. -/
theorem joined_right {n : Nat} (src dst : Arr n 64) (geo : Arr n 8) (wg : Arr 8 32) (bg : Arr 1 32) (r : Fin n) (q : Fin 96)
    (hq : ¬ q.val < 64) :
    joined src dst geo wg bg (ix2 r q) = affine geo wg bg (ix2 r ⟨q.val - 64, by have := q.isLt; omega⟩) := dif_neg hq

/-- The reference's concatenation of the endpoint product and the projected geometry is `joined`, entry by entry. -/
theorem concat_eq_joined (src dst : FVec Ideal S800000x64 .f32) (x2 : FVec Ideal S800000x8 .f32) (x7 : FVec Ideal S8x32 .f32)
    (x8 : FVec Ideal S32 .f32) (r : Fin 800000) (q : Fin 96) :
    concatenate S800000x96 1 [⟨S800000x64, mulf src dst⟩, ⟨S800000x32, val_main_v26 (F := Ideal) x2 x7 x8⟩]
        concatenates_S800000x64_S800000x32_S800000x96_d1 (ix2 r q)
      = joined (n := 800000) src dst x2 x7 (asRow x8) (ix2 r q) := by
  by_cases hq : q.val < 64
  · rw [joined_left _ _ _ _ _ r q hq]
    exact concatenate_pair_apply_left (t := S800000x96) (s₁ := S800000x64) (s₂ := S800000x32) 1 (mulf src dst)
      (val_main_v26 (F := Ideal) x2 x7 x8) concatenates_S800000x64_S800000x32_S800000x96_d1 (ix2 r q) rfl
      (ix2 r ⟨q.val, hq⟩) (fun b => by match b with | ⟨0, _⟩ => rfl | ⟨1, _⟩ => rfl)
  · rw [joined_right _ _ _ _ _ r q hq, ← ref_geoProj]
    exact concatenate_pair_apply_right (t := S800000x96) (s₁ := S800000x64) (s₂ := S800000x32) 1 (mulf src dst)
      (val_main_v26 (F := Ideal) x2 x7 x8) concatenates_S800000x64_S800000x32_S800000x96_d1 (ix2 r q) rfl rfl
      (ix2 r ⟨q.val - 64, by have := q.isLt; omega⟩)
      (fun b => by match b with | ⟨0, _⟩ => exact fun _ => rfl | ⟨1, _⟩ => exact fun h => absurd rfl h)
      (by show q.val - 64 + 64 = q.val; omega)

/-! ## The last contraction, over any left operand -/

/-- The last `dot_general` at an index is the sum over the 96 joined columns. -/
theorem dot96_apply (y : FVec Ideal S800000x96 .f32) (x11 : FVec Ideal S96x64 .f32) (i : S800000x64.Idx) :
    Host.dotGeneral (F := Ideal) dot_S800000x96_S96x64_S800000x64_1_0_0_1_n_n none y x11 i
      = ∑ k : Fin 96, y (ix2 (row i) k) * x11 (ix2 k (col i)) := by
  simp only [Host.dotGeneral]
  rw [Ideal.dotGeneral_apply, ← Equiv.sum_comp (ValueIdx.contrEquiv1 dot_S800000x96_S96x64_S800000x64_1_0_0_1_n_n 96 rfl rfl).symm]
  refine Finset.sum_congr rfl fun k _ => ?_
  have hk := ValueIdx.contrEquiv1_symm_val dot_S800000x96_S96x64_S800000x64_1_0_0_1_n_n 96 rfl rfl k
  have el : dot_S800000x96_S96x64_S800000x64_1_0_0_1_n_n.lhsIdx i ((ValueIdx.contrEquiv1 dot_S800000x96_S96x64_S800000x64_1_0_0_1_n_n 96 rfl rfl).symm k) = ix2 (row i) k := funext fun a => Fin.ext (by
    match a with
    | ⟨0, _⟩ => exact lhs_main_v50_0 _ _
    | ⟨1, _⟩ => exact (lhs_main_v50_1 _ _).trans hk)
  have er : dot_S800000x96_S96x64_S800000x64_1_0_0_1_n_n.rhsIdx i ((ValueIdx.contrEquiv1 dot_S800000x96_S96x64_S800000x64_1_0_0_1_n_n 96 rfl rfl).symm k) = ix2 k (col i) := funext fun a => Fin.ext (by
    match a with
    | ⟨0, _⟩ => exact (rhs_main_v50_0 _ _).trans hk
    | ⟨1, _⟩ => exact rhs_main_v50_1 _ _)
  rw [el, er]

/-- `refFuse` is `fuse` at the full extent, index by index. -/
theorem refFuse_eq (src dst : FVec Ideal S800000x64 .f32) (x2 : FVec Ideal S800000x8 .f32) (x7 : FVec Ideal S8x32 .f32)
    (x8 : FVec Ideal S32 .f32) (gam bet : FVec Ideal S800000x64 .f32) (x11 : FVec Ideal S96x64 .f32) :
    refFuse src dst x2 x7 x8 gam bet x11 = fuse (n := 800000) src dst x2 gam bet x7 (asRow x8) x11 := by
  funext i
  -- the clip's floor is the zero word, broadcast
  have hz : val_main_call0_v0 (F := Ideal) i = Ideal.ofBits .f32 0x00000000#32 := by
    rw [val_main_call0_v0_apply, val_main_call0_cst_apply]; rfl
  -- the contraction runs over the joined columns
  have hd : Host.dotGeneral (F := Ideal) dot_S800000x96_S96x64_S800000x64_1_0_0_1_n_n none
      (concatenate S800000x96 1 [⟨S800000x64, mulf src dst⟩, ⟨S800000x32, val_main_v26 (F := Ideal) x2 x7 x8⟩]
        concatenates_S800000x64_S800000x32_S800000x96_d1) x11 i
      = ∑ q : Fin 96, joined (n := 800000) src dst x2 x7 (asRow x8) (ix2 (row i) q) * x11 (ix2 q (col i)) := by
    rw [dot96_apply]
    exact Finset.sum_congr rfl fun q _ => by rw [concat_eq_joined]
  unfold refFuse fuse
  rw [maximumf_apply, addf_apply, mulf_apply, hd, hz]

end Cert.FilmEdge

end
-- ==== Proof.Bridge.lean ====
/-
  The kernel's result is the reference's, on arguments whose integer indices are in range.

  Both are `fuse` at the full extent of four gathered arrays, the geometry, and the weights. The gathered arrays
  agree: the kernel's projected node features and projected conditioning are the reference's (both `affine`, the
  bias vector reshaped to a row being the bias broadcast along the rows); both programs wrap the indices alike; and
  with `-100000 ≤ edge_index < 100000` and `-64 ≤ edge_batch_ids < 64` the kernel's range test holds on every edge,
  so its select returns the gathered rows, which are the reference's gather (`Take.lean`).
-/
import proofs.«410433_j62027917688906_1_alg».proof.Proof.KernelValue
import proofs.«410433_j62027917688906_1_alg».proof.Proof.RefStages
import proofs.«410433_j62027917688906_1_alg».proof.Proof.Take
import Idealize.ShloMosaic.Lib.Pipeline.Value

noncomputable section

namespace Cert.FilmEdge

open Idealize.ShloMosaic Idealize.ShloMosaic.ValueIdx

/-- A vector reshaped to a one-row array is that row. -/
theorem reshape_row {n : Nat} (b : (⟨1, ![n]⟩ : Shape).Idx → EReal)
    (h : (⟨1, ![n]⟩ : Shape).ShapeCasts ⟨2, ![1, n]⟩) : shapeCast (⟨2, ![1, n]⟩ : Shape) b h = asRow b := by
  funext j
  refine (shapeCast_addUnit_apply (n := 1) ![n] b h j).trans ?_
  unfold asRow
  congr 1
  funext a
  match a with
  | ⟨0, _⟩ => rfl

/-- With every index in `[-N, N)` the kernel's row gather is the plain gather at the wrapped indices. -/
theorem takeRows_eq {s : Shape} (d : GatherDims s Cert.KernelIdeal.S800000x1 Cert.KernelIdeal.S800000x64) (n hi : BitVec 32)
    (N : Int) (hn : n.toInt = N) (hhi : hi.toInt = N - 1) (hN : 0 < N) (hN' : N < 2 ^ 30) (A : s.Idx → EReal)
    (a : IVec Cert.KernelIdeal.S800000 32) (h : ∀ e, -N ≤ (a e).toInt ∧ (a e).toInt < N) :
    takeRows d n hi A a = Host.gather d A (startCol n a) := by
  unfold takeRows
  exact select_inRange n hi N hn hhi hN hN' a h _ _

/-- The endpoint rows inherit the endpoint array's range. -/
theorem rowOf0_range (x1 : IVec Cert.KernelIdeal.S2x800000 32)
    (h1 : ∀ j, -100000 ≤ (x1 j).toInt ∧ (x1 j).toInt < 100000) (e : Cert.KernelIdeal.S800000.Idx) :
    -100000 ≤ (rowOf0 x1 e).toInt ∧ (rowOf0 x1 e).toInt < 100000 := by
  obtain ⟨j, hj⟩ := sliceRow0_mem x1 e
  have hj' : rowOf0 x1 e = x1 j := hj
  rw [hj']
  exact h1 j
@[inherit_doc rowOf0_range]
theorem rowOf1_range (x1 : IVec Cert.KernelIdeal.S2x800000 32)
    (h1 : ∀ j, -100000 ≤ (x1 j).toInt ∧ (x1 j).toInt < 100000) (e : Cert.KernelIdeal.S800000.Idx) :
    -100000 ≤ (rowOf1 x1 e).toInt ∧ (rowOf1 x1 e).toInt < 100000 := by
  obtain ⟨j, hj⟩ := sliceRow1_mem x1 e
  have hj' : rowOf1 x1 e = x1 j := hj
  rw [hj']
  exact h1 j

open Cert.ReferenceIdeal.Read in
/-- The kernel's result function is the reference's result stage. -/
theorem value_eq (x0 : FVec Ideal Cert.KernelIdeal.S100000x64 .f32) (x1 : IVec Cert.KernelIdeal.S2x800000 32)
    (x2 : FVec Ideal Cert.KernelIdeal.S800000x8 .f32) (x3 : FVec Ideal Cert.KernelIdeal.S64x512 .f32) (x4 : IVec Cert.KernelIdeal.S800000 32)
    (x5 : FVec Ideal Cert.KernelIdeal.S64x64 .f32) (x6 : FVec Ideal Cert.KernelIdeal.S64 .f32) (x7 : FVec Ideal Cert.KernelIdeal.S8x32 .f32)
    (x8 : FVec Ideal Cert.KernelIdeal.S32 .f32) (x9 : FVec Ideal Cert.KernelIdeal.S512x128 .f32) (x10 : FVec Ideal Cert.KernelIdeal.S128 .f32)
    (x11 : FVec Ideal Cert.KernelIdeal.S96x64 .f32)
    (h1 : ∀ j, -100000 ≤ (x1 j).toInt ∧ (x1 j).toInt < 100000) (h4 : ∀ e, -64 ≤ (x4 e).toInt ∧ (x4 e).toInt < 64) :
    kernelValue x0 x1 x2 x3 x4 x5 x6 x7 x8 x9 x10 x11 = val_main_v53 (F := Ideal) x0 x1 x2 x3 x4 x5 x6 x7 x8 x9 x10 x11 := by
  rw [ref_result_split, refFuse_eq]
  unfold kernelValue
  rw [takeRows_eq Cert.KernelIdeal.gather_S100000x64_S800000x1_S800000x64_1_0_n_n_0_1_164 100000#32 99999#32 100000 (by decide) (by decide) (by norm_num) (by norm_num) _ _ (rowOf0_range x1 h1),
    takeRows_eq Cert.KernelIdeal.gather_S100000x64_S800000x1_S800000x64_1_0_n_n_0_1_164 100000#32 99999#32 100000 (by decide) (by decide) (by norm_num) (by norm_num) _ _ (rowOf1_range x1 h1),
    takeRows_eq Cert.KernelIdeal.gather_S64x64_S800000x1_S800000x64_1_0_n_n_0_1_164 64#32 63#32 64 (by decide) (by decide) (by norm_num) (by norm_num) _ x4 h4,
    takeRows_eq Cert.KernelIdeal.gather_S64x64_S800000x1_S800000x64_1_0_n_n_0_1_164 64#32 63#32 64 (by decide) (by decide) (by norm_num) (by norm_num) _ x4 h4]
  have e6 : shapeCast Cert.KernelIdeal.S1x64 x6 Cert.KernelIdeal.Gen.shapeCasts_S64_S1x64 = asRow x6 := reshape_row x6 _
  have e10 : shapeCast Cert.KernelIdeal.S1x128 x10 Cert.KernelIdeal.Gen.shapeCasts_S128_S1x128 = asRow x10 := reshape_row x10 _
  have e8 : shapeCast Cert.KernelIdeal.S1x32 x8 Cert.KernelIdeal.Gen.shapeCasts_S32_S1x32 = asRow x8 := reshape_row x8 _
  rw [e6, e10, e8]
  have e12 : val_main_v12 (F := Ideal) x0 x1 x5 x6
      = Host.gather Cert.KernelIdeal.gather_S100000x64_S800000x1_S800000x64_1_0_n_n_0_1_164 (affine (n := 100000) (k := 64) (m := 64) x0 x5 (asRow x6)) (startCol 100000#32 (rowOf0 x1)) := by
    unfold val_main_v12
    rw [ref_nodeProj]
    rfl
  have e21 : val_main_v21 (F := Ideal) x0 x1 x5 x6
      = Host.gather Cert.KernelIdeal.gather_S100000x64_S800000x1_S800000x64_1_0_n_n_0_1_164 (affine (n := 100000) (k := 64) (m := 64) x0 x5 (asRow x6)) (startCol 100000#32 (rowOf1 x1)) := by
    unfold val_main_v21
    rw [ref_nodeProj]
    rfl
  have e42 : val_main_v42 (F := Ideal) x3 x4 x9 x10
      = Host.gather Cert.KernelIdeal.gather_S64x64_S800000x1_S800000x64_1_0_n_n_0_1_164
          (addf (extractStridedSlice Cert.KernelIdeal.S64x64 ![0, 0] (affine (n := 64) (k := 512) (m := 128) x3 x9 (asRow x10)) Cert.KernelIdeal.Gen.slices_S64x128_S64x64_0_0)
            (broadcastInDim Cert.KernelIdeal.S64x64 ![] Cert.KernelIdeal.Gen.bcast_S_S64x64 (constant (F := Ideal) Cert.KernelIdeal.S_ .f32 0x3F800000#32)))
          (startCol 64#32 x4) := by
    unfold val_main_v42 val_main_v35 val_main_v32
    rw [ref_condProj]
    rfl
  have e49 : val_main_v49 (F := Ideal) x3 x4 x9 x10
      = Host.gather Cert.KernelIdeal.gather_S64x64_S800000x1_S800000x64_1_0_n_n_0_1_164
          (extractStridedSlice Cert.KernelIdeal.S64x64 ![0, 64] (affine (n := 64) (k := 512) (m := 128) x3 x9 (asRow x10)) Cert.KernelIdeal.Gen.slices_S64x128_S64x64_0_64)
          (startCol 64#32 x4) := by
    unfold val_main_v49 val_main_v33
    rw [ref_condProj]
    rfl
  rw [e12, e21, e42, e49]

end Cert.FilmEdge

end
-- ==== Proof.lean ====
/-
  `Cert.Claim`: a FiLM-conditioned edge update of a graph network — project the node features, gather them to the
  edges' endpoints and multiply, project the edge geometry, join, apply `Wx`, scale and shift by the per-graph
  conditioning gathered to the edges, clip at zero — computed by three kernels with host gathers between them,
  against the same computation in plain array operations, over the extended reals.

  The precondition: every float input finite (not used: the two programs are the same sums and products in the same
  association, so no law that fails at an infinity is needed), the edge endpoints in `[-100000, 100000)` and the edges'
  graph ids in `[-64, 64)` — the ranges in which the reference's indexing is in range; outside them the kernel's
  `take` fills with NaN where the reference's gather clamps.

  The frames of the two kernel programs are the generated ones; the reference's is its generated run with the result
  dropped; no rewrite was applied when the kernel was idealized. The equivalence: the kernel program ends with its result
  at `kernelValue` of the arguments (`KernelValue.lean`, over the row-wise functions of `Spec.lean`: `Payload.lean`,
  `Blocks.lean`), the reference at its last stage (generated), and the two are one function on in-range indices
  (`Bridge.lean` over `RefStages.lean` and `Take.lean`).
-/
import proofs.«410433_j62027917688906_1_alg».proof.Defs
import proofs.«410433_j62027917688906_1_alg».proof.Proof.Gen.Kernel.Frame
import proofs.«410433_j62027917688906_1_alg».proof.Proof.Gen.KernelIdeal.Frame
import proofs.«410433_j62027917688906_1_alg».proof.Proof.Gen.ReferenceIdeal.Run
import proofs.«410433_j62027917688906_1_alg».proof.Proof.Gen.ReferenceIdeal.Read
import proofs.«410433_j62027917688906_1_alg».proof.Proof.Gen.Pre_finite_inputs
import proofs.«410433_j62027917688906_1_alg».proof.Proof.KernelValue
import proofs.«410433_j62027917688906_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: `kernelValue` of the (agreeing) arguments. -/
theorem algebraic : Cert.algebraic_KernelIdeal_ReferenceIdeal := by
  intro m ρ m' ρ' hpre hagree
  refine ⟨fun c => Cert.FilmEdge.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.FilmEdge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  obtain ⟨a0, a1, a2, a3, a4, a5, a6, a7, a8, a9, a10, a11⟩ := hagree c
  rw [a0, a1, a2, a3, a4, a5, a6, a7, a8, a9, a10, a11]
  exact (Cert.FilmEdge.value_eq _ _ _ _ _ _ _ _ _ _ _ _
    (Cert.FilmEdge.edge_index_inrange m hpre c) (Cert.FilmEdge.batch_ids_inrange m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
